-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S86x256 : Shape := ⟨2, ![86, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S86x256 : S_.BroadcastsInDim S86x256 (![] : Fin 0 → Fin S86x256.rank)
  reducesTo_S86x256_S_d0_1 : S86x256.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x256 .f32) (main_arg1 : IVec S131072 32) (main_arg2 : FVec F S86x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S86x256 .f32 := Host.absf main_arg2
  let main_cst_0 : FVec F S_ .f32 := constant S_ .f32 0x7F800000#32
  let main_v5 : FVec F S86x256 .f32 := broadcastInDim S86x256 ![] bcast_S_S86x256 main_cst_0
  let main_v6 : IVec S86x256 1 := cmpf .olt main_v4 main_v5
  let main_c_1 : IVec S_ 1 := constantI S_ 1 1#1
  let main_v7 : IVec S_ 1 := (fun x v => Host.reduce IntOp.andi x v reducesTo_S86x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  let main_c_4 : IVec S_ 32 := constantI S_ 32 86#32
  let main_v13 : IVec S131072 32 := broadcastInDim S131072 ![] bcast_S_S131072 main_c_4
  let main_v14 : IVec S131072 1 := cmpi .slt main_arg1 main_v13
  let main_c_5 : IVec S_ 1 := constantI S_ 1 1#1
  let main_v15 : IVec S_ 1 := (fun x v => Host.reduce IntOp.andi x v reducesTo_S131072_S_d0 h_S_) main_v14 main_c_5
  fn_part1 (F := F) main_v12 main_v15
-- ==== Kernel.lean ====
abbrev S131072x256 : Shape := ⟨2, ![131072, 256]⟩
abbrev S131072 : Shape := ⟨1, ![131072]⟩
abbrev S86x256 : Shape := ⟨2, ![86, 256]⟩
abbrev S_ : Shape := ⟨0, ![]⟩
abbrev S86 : Shape := ⟨1, ![86]⟩
abbrev S131072x1 : Shape := ⟨2, ![131072, 1]⟩
abbrev S1x131072 : Shape := ⟨2, ![1, 131072]⟩
abbrev S128x256 : Shape := ⟨2, ![128, 256]⟩
abbrev S2x1x1 : Shape := ⟨3, ![2, 1, 1]⟩
abbrev S2x128x256 : Shape := ⟨3, ![2, 128, 256]⟩
abbrev S4096x256 : Shape := ⟨2, ![4096, 256]⟩
abbrev S1x4096 : Shape := ⟨2, ![1, 4096]⟩
abbrev S1x1x1 : Shape := ⟨3, ![1, 1, 1]⟩
abbrev S1x128x256 : Shape := ⟨3, ![1, 128, 256]⟩
abbrev S1x1 : Shape := ⟨2, ![1, 1]⟩
abbrev S128x4096 : Shape := ⟨2, ![128, 4096]⟩
abbrev S4096 : Shape := ⟨1, ![4096]⟩
abbrev S4096x1 : Shape := ⟨2, ![4096, 1]⟩
abbrev S1 : Shape := ⟨1, ![1]⟩
abbrev S86x1 : Shape := ⟨2, ![86, 1]⟩

abbrev nBuf : Space → Nat
  | .hbm => 30
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S86x256, .f32⟩
  | .hbm, ⟨3, _⟩ => ⟨S_, .f32⟩
  | .hbm, ⟨4, _⟩ => ⟨S131072, .f32⟩
  | .hbm, ⟨5, _⟩ => ⟨S_, .f32⟩
  | .hbm, ⟨6, _⟩ => ⟨S86, .f32⟩
  | .hbm, ⟨7, _⟩ => ⟨S131072x1, .i32⟩
  | .hbm, ⟨8, _⟩ => ⟨S86, .f32⟩
  | .hbm, ⟨9, _⟩ => ⟨S1x131072, .i32⟩
  | .hbm, ⟨10, _⟩ => ⟨S_, .i32⟩
  | .hbm, ⟨11, _⟩ => ⟨S_, .f32⟩
  | .hbm, ⟨12, _⟩ => ⟨S128x256, .f32⟩
  | .hbm, ⟨13, _⟩ => ⟨S2x1x1, .f32⟩
  | .hbm, ⟨14, _⟩ => ⟨S2x128x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S86, .f32⟩
  | .hbm, ⟨19, _⟩ => ⟨S86, .f32⟩
  | .hbm, ⟨20, _⟩ => ⟨S_, .f32⟩
  | .hbm, ⟨21, _⟩ => ⟨S86, .f32⟩
  | .hbm, ⟨22, _⟩ => ⟨S86, .f32⟩
  | .hbm, ⟨23, _⟩ => ⟨S_, .f32⟩
  | .hbm, ⟨24, _⟩ => ⟨S128x256, .f32⟩
  | .hbm, ⟨25, _⟩ => ⟨S86x256, .f32⟩
  | .hbm, ⟨26, _⟩ => ⟨S86x1, .f32⟩
  | .hbm, ⟨27, _⟩ => ⟨S86x256, .f32⟩
  | .hbm, ⟨28, _⟩ => ⟨S86x256, .f32⟩
  | .hbm, ⟨29, _⟩ => ⟨S86x256, .f32⟩
  | .local _ .vmem, ⟨0, _⟩ => ⟨S4096x256, .f32⟩
  | .local _ .vmem, ⟨1, _⟩ => ⟨S4096x256, .f32⟩
  | .local _ .vmem, ⟨2, _⟩ => ⟨S1x4096, .i32⟩
  | .local _ .vmem, ⟨3, _⟩ => ⟨S1x4096, .i32⟩
  | .local _ .vmem, ⟨4, _⟩ => ⟨S128x256, .f32⟩
  | .local _ .vmem, ⟨5, _⟩ => ⟨S1x1x1, .f32⟩
  | .local _ .vmem, ⟨6, _⟩ => ⟨S1x1x1, .f32⟩
  | .local _ .vmem, ⟨7, _⟩ => ⟨S1x128x256, .f32⟩
  | .local _ .vmem, ⟨8, _⟩ => ⟨S1x128x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S131072 : S_.BroadcastsInDim S131072 (![] : Fin 0 → Fin S131072.rank)
  bcast_S_S86 : S_.BroadcastsInDim S86 (![] : Fin 0 → Fin S86.rank)
  bcast_S131072_S131072x1_0 : S131072.BroadcastsInDim S131072x1 (![0] : Fin 1 → Fin S131072x1.rank)
  shapeCasts_S131072_S1x131072 : S131072.ShapeCasts S1x131072
  pads_S86x256_S128x256_0420_000 : S86x256.Pads (![0, 0] : Fin 2 → Nat) ![42, 0] ![0, 0] S128x256
  h_S_ : 0 < S_.numel
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  iota_S128x4096_d0_w32 : S128x4096.Iotas .tc 32 [0]
  broadcasts_S1x4096_S128x4096 : S1x4096.Broadcasts S128x4096
  natLt_1_32 : 1 < 32
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  reducesTo_S2x1x1_S_d0_1_2 : S2x1x1.ReducesTo [0, 1, 2] S_
  reducesTo_S2x128x256_S128x256_d0 : S2x128x256.ReducesTo [0] S128x256
  slices_S128x256_S86x256_0_0 : S128x256.Slices ![0, 0] S86x256
  bcast_S86_S86x1_0 : S86.BroadcastsInDim S86x1 (![0] : Fin 1 → Fin S86x1.rank)
  bcast_S86x1_S86x256_0_1 : S86x1.BroadcastsInDim S86x256 (![0, 1] : Fin 2 → Fin S86x256.rank)
  scatter_S86_S131072x1_S131072_n_0_0_1_wf : ScatterDims.WF S86 S131072x1 S131072 [] [0] [0] 1
  dot_S128x4096_S128x256_S4096x256_0_0_1_1_n_n_wf : DotDims.WF S128x4096 S128x256 S4096x256 [0] [0] [1] [1] [] []
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x131072.size a
  hwx0_1 : ∀ i : grid0.Coords, EltTy.bits .i32 = 32 ∨ (Rect.block (s := S1x131072) S1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x256.size a ≤ S2x128x256.size a
  hwx0_4 : ∀ i : grid0.Coords, EltTy.bits .f32 = 32 ∨ (Rect.block (s := S2x128x256) S1x128x256.size (cc0_transform_4 i) (hinb0_4 i)).WholeWords (EltTy.packing .f32)

variable [Facts₀]

def scatter_S86_S131072x1_S131072_n_0_0_1 : ScatterDims S86 S131072x1 S131072 where
  updateWindowDims := []
  insertedWindowDims := [0]
  scatterDimsToOperandDims := [0]
  indexVectorDim := 1
  wf := scatter_S86_S131072x1_S131072_n_0_0_1_wf
def dot_S128x4096_S128x256_S4096x256_0_0_1_1_n_n : DotDims S128x4096 S128x256 S4096x256 where
  lhsContracting := [0]
  rhsContracting := [0]
  lhsNonContracting := [1]
  rhsNonContracting := [1]
  lhsBatch := []
  rhsBatch := []
  wf := dot_S128x4096_S128x256_S4096x256_0_0_1_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S86x256 : Shape := ⟨2, ![86, 256]⟩
abbrev S_ : Shape := ⟨0, ![]⟩
abbrev S131072x1 : Shape := ⟨2, ![131072, 1]⟩
abbrev S86 : Shape := ⟨1, ![86]⟩

abbrev nBuf : Space → Nat
  | .hbm => 53
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S86x256, .f32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S131072, .f32⟩
  | .hbm, ⟨20, _⟩ => ⟨S_, .f32⟩
  | .hbm, ⟨21, _⟩ => ⟨S86, .f32⟩
  | .hbm, ⟨22, _⟩ => ⟨S131072x1, .i32⟩
  | .hbm, ⟨23, _⟩ => ⟨S86, .f32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072, .f32⟩
  | .hbm, ⟨33, _⟩ => ⟨S131072x1, .f32⟩
  | .hbm, ⟨34, _⟩ => ⟨S131072x256, .f32⟩
  | .hbm, ⟨35, _⟩ => ⟨S_, .f32⟩
  | .hbm, ⟨36, _⟩ => ⟨S131072x256, .f32⟩
  | .hbm, ⟨37, _⟩ => ⟨S131072x256, .f32⟩
  | .hbm, ⟨38, _⟩ => ⟨S_, .f32⟩
  | .hbm, ⟨39, _⟩ => ⟨S131072x1, .f32⟩
  | .hbm, ⟨40, _⟩ => ⟨S131072x1, .f32⟩
  | .hbm, ⟨41, _⟩ => ⟨S131072x256, .f32⟩
  | .hbm, ⟨42, _⟩ => ⟨S131072x256, .f32⟩
  | .hbm, ⟨43, _⟩ => ⟨S131072x256, .f32⟩
  | .hbm, ⟨44, _⟩ => ⟨S_, .i32⟩
  | .hbm, ⟨45, _⟩ => ⟨S131072, .i32⟩
  | .hbm, ⟨46, _⟩ => ⟨S131072, .i1⟩
  | .hbm, ⟨47, _⟩ => ⟨S_, .i32⟩
  | .hbm, ⟨48, _⟩ => ⟨S131072, .i32⟩
  | .hbm, ⟨49, _⟩ => ⟨S131072, .i32⟩
  | .hbm, ⟨50, _⟩ => ⟨S131072, .i32⟩
  | .hbm, ⟨51, _⟩ => ⟨S131072x1, .i32⟩
  | .hbm, ⟨52, _⟩ => ⟨S86x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  reducesTo_S131072x256_S_d0_1 : S131072x256.ReducesTo [0, 1] S_
  h_S_ : 0 < S_.numel
  bcast_S_S86 : S_.BroadcastsInDim S86 (![] : Fin 0 → Fin S86.rank)
  bcast_S_S131072x256 : S_.BroadcastsInDim S131072x256 (![] : Fin 0 → Fin S131072x256.rank)
  bcast_S_S131072x1 : S_.BroadcastsInDim S131072x1 (![] : Fin 0 → Fin S131072x1.rank)
  bcast_S131072x1_S131072x256_0_1 : S131072x1.BroadcastsInDim S131072x256 (![0, 1] : Fin 2 → Fin S131072x256.rank)
  gather_S86x256_S131072x1_S131072x256_1_0_n_n_0_1_1256_wf : GatherDims.WF S86x256 S131072x1 S131072x256 [1] [0] [] [0] [] 1 ![1, 256]
  scatter_S86_S131072x1_S131072_n_0_0_1_wf : ScatterDims.WF S86 S131072x1 S131072 [] [0] [0] 1
  gather_S86_S131072x1_S131072_n_0_n_n_0_1_1_wf : GatherDims.WF S86 S131072x1 S131072 [] [0] [] [0] [] 1 ![1]
  scatter_S86x256_S131072x1_S131072x256_1_0_0_1_wf : ScatterDims.WF S86x256 S131072x1 S131072x256 [1] [0] [0] 1

variable [Facts₀]

def gather_S86x256_S131072x1_S131072x256_1_0_n_n_0_1_1256 : GatherDims S86x256 S131072x1 S131072x256 where
  offsetDims := [1]
  collapsedSliceDims := [0]
  operandBatchingDims := []
  startIndicesBatchingDims := []
  startIndexMap := [0]
  indexVectorDim := 1
  sliceSizes := ![1, 256]
  wf := gather_S86x256_S131072x1_S131072x256_1_0_n_n_0_1_1256_wf
def scatter_S86_S131072x1_S131072_n_0_0_1 : ScatterDims S86 S131072x1 S131072 where
  updateWindowDims := []
  insertedWindowDims := [0]
  scatterDimsToOperandDims := [0]
  indexVectorDim := 1
  wf := scatter_S86_S131072x1_S131072_n_0_0_1_wf
def gather_S86_S131072x1_S131072_n_0_n_n_0_1_1 : GatherDims S86 S131072x1 S131072 where
  offsetDims := []
  collapsedSliceDims := [0]
  operandBatchingDims := []
  startIndicesBatchingDims := []
  startIndexMap := [0]
  indexVectorDim := 1
  sliceSizes := ![1]
  wf := gather_S86_S131072x1_S131072_n_0_n_n_0_1_1_wf
def scatter_S86x256_S131072x1_S131072x256_1_0_0_1 : ScatterDims S86x256 S131072x1 S131072x256 where
  updateWindowDims := [1]
  insertedWindowDims := [0]
  scatterDimsToOperandDims := [0]
  indexVectorDim := 1
  wf := scatter_S86x256_S131072x1_S131072x256_1_0_0_1_wf

class Facts : Prop extends Facts₀ where

variable [Facts]
-- ==== Proof.KPieces.lean ====
/-
  What each of the two control cases leaves in the two accumulated result tiles, as a closed term of the
  tile's three input blocks (and, off the first tile of a run, of what the tile before left): the stores a
  case performs cover the whole tile, so reading them back gives the last stored value.
-/
import proofs.«403531_j19035295056206_3_alg».proof.Proof.Gen.KernelIdeal.Frame
import Idealize.ShloMosaic.Lib.Pipeline.Value
import Idealize.ShloMosaic.Lib.Tactic

set_option maxRecDepth 16384

noncomputable section

namespace Cert.CenterLoss.Pieces

open Idealize.ShloMosaic Idealize.ShloMosaic.TcCoe Idealize.ShloMosaic.Tactic
open Idealize.SL Idealize.SL.Sem
open Cert.KernelIdeal Cert.KernelIdeal.Gen

variable {F : FTy → Type} [FloatOps F]
variable (c : Dev nD) (i : grid0.Coords)
  (arg2 : Memref sig .tc .vmem S4096x256 .f32) (harg2 : arg2.IsWhole)
  (arg3 : Memref sig .tc .vmem S1x4096 .i32) (harg3 : arg3.IsWhole)
  (arg4 : Memref sig .tc .vmem S128x256 .f32) (harg4 : arg4.IsWhole)
  (arg5 : Memref sig .tc .vmem S1x1x1 .f32) (harg5 : arg5.IsWhole)
  (arg6 : Memref sig .tc .vmem S1x128x256 .f32) (harg6 : arg6.IsWhole)
  (x0 : Vec F S4096x256 .f32) (x1 : Vec F S1x4096 .i32) (x2 : Vec F S128x256 .f32)

/-- The offsets of a whole-tile rectangle are all zero, in the two spellings the stores and loads carry. -/
private theorem zero3 : (![0, 0, 0] : Fin 3 → Nat) = fun _ => 0 := funext fun a => by fin_cases a <;> rfl
private theorem zero2 : (![0, 0] : Fin 2 → Nat) = fun _ => 0 := funext fun a => by fin_cases a <;> rfl

/-! Every store and every load of the tile goes through the whole-tile rectangle, so the last store's value is
what is read back, a load of an untouched input block is the block itself, and a load of a result tile after its
reset store is the stored zero tile. -/

/-- First tile of a run, the loss cell: reset to zero, then the tile's share added to it. -/
theorem lossA (hc0 : cond0_0 i) :
    out0_A_3 c i arg2 harg2 arg3 harg3 arg4 harg4 arg5 harg5 arg6 harg6 hc0 x0 x1 x2
      = k0_pay6 x1 x2 x0 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x1x1) zero3, View.readCov_unit_zero (S := S1x1x1) _ zero3]
  simp only [View.readAt_eq_ld, harg2.read_unread, harg3.read_unread, harg4.read_unread,
    View.ld_unit_zero (S := S1x4096) zero2, View.ld_unit_zero (S := S128x256) zero2,
    View.ld_unit_zero (S := S4096x256) zero2]

/-- First tile of a run, the class sums: reset to zero, then the tile's share added. -/
theorem deltaA (hc0 : cond0_0 i) :
    out0_A_4 c i arg2 harg2 arg3 harg3 arg4 harg4 arg5 harg5 arg6 harg6 hc0 x0 x1 x2
      = k0_pay1 (k0_pay7 x1 x2 x0) (k0_pay8 (k0_pay3 (F := F))) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x128x256) zero3, View.readCov_unit_zero (S := S1x128x256) _ zero3]
  simp only [View.readAt_eq_ld, harg2.read_unread, harg3.read_unread, harg4.read_unread,
    View.ld_unit_zero (S := S1x4096) zero2, View.ld_unit_zero (S := S128x256) zero2,
    View.ld_unit_zero (S := S4096x256) zero2]

/-- A later tile, the loss cell: the tile's share added to what the tile before left. -/
theorem lossB (hc0 : ¬cond0_0 i) (xo3 : Vec F S1x1x1 .f32) (xo4 : Vec F S1x128x256 .f32) :
    out0_B_3 c i arg2 harg2 arg3 harg3 arg4 harg4 arg5 harg5 arg6 harg6 hc0 x0 x1 x2 xo3 xo4
      = k0_pay6 x1 x2 x0 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero (S := S1x1x1) zero3]
  simp only [View.readAt_eq_ld, harg2.read_unread, harg3.read_unread, harg4.read_unread, harg5.read_unread,
    View.ld_unit_zero (S := S1x1x1) zero3, View.ld_unit_zero (S := S1x4096) zero2,
    View.ld_unit_zero (S := S128x256) zero2, View.ld_unit_zero (S := S4096x256) zero2]

/-- A later tile, the class sums: the tile's share added to what the tile before left. -/
theorem deltaB (hc0 : ¬cond0_0 i) (xo3 : Vec F S1x1x1 .f32) (xo4 : Vec F S1x128x256 .f32) :
    out0_B_4 c i arg2 harg2 arg3 harg3 arg4 harg4 arg5 harg5 arg6 harg6 hc0 x0 x1 x2 xo3 xo4
      = k0_pay1 (k0_pay7 x1 x2 x0) (k0_pay8 xo4) := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero (S := S1x128x256) zero3]
  simp only [View.readAt_eq_ld, harg2.read_unread, harg3.read_unread, harg4.read_unread, harg6.read_unread,
    View.ld_unit_zero (S := S1x128x256) zero3, View.ld_unit_zero (S := S1x4096) zero2,
    View.ld_unit_zero (S := S128x256) zero2, View.ld_unit_zero (S := S4096x256) zero2]

end Cert.CenterLoss.Pieces

end
-- ==== Proof.Spec.lean ====
/-
  The mathematics both programs are measured against, stated without either program.

  Inputs: a table of N = 131072 feature rows of 256 entries, one class label per row in 0 … 85, and a
  table of 86 class centres of 256 entries. With d(n, f) = x(n, f) − c(label n, f):
    • the loss is ½ · Σₙ Σ_f d(n, f)²;
    • centre k moves by the sum of the d-rows of its class, scaled by ½ / (1 + number of rows of class k).
  The first half of the file writes what ONE tile of 4096 rows contributes when the class lookup is done by a
  one-hot product against the centre table padded with zero rows to 128 classes, and how 32 tiles are
  accumulated in two runs of 16; the second half writes the same quantities over the reals.
-/
import Idealize.ShloMosaic.PureOps.Ideal
import Idealize.ShloMosaic.Lib.ValueIdx

noncomputable section

namespace Cert.CenterLoss

open Idealize.ShloMosaic Idealize.ShloMosaic.ValueIdx

/-! ## Shapes -/

abbrev SX : Shape := ⟨2, ![131072, 256]⟩
abbrev SLb : Shape := ⟨1, ![131072]⟩
abbrev SC : Shape := ⟨2, ![86, 256]⟩
abbrev SCnt : Shape := ⟨1, ![86]⟩
abbrev S0 : Shape := ⟨0, ![]⟩
/-- A tile of 4096 feature rows, its labels as one row of 4096 words, the centre table padded to 128 rows. -/
abbrev BX : Shape := ⟨2, ![4096, 256]⟩
abbrev BL : Shape := ⟨2, ![1, 4096]⟩
abbrev BC : Shape := ⟨2, ![128, 256]⟩
/-- The two partial results, one slab per run of 16 tiles. -/
abbrev OL : Shape := ⟨3, ![2, 1, 1]⟩
abbrev OD : Shape := ⟨3, ![2, 128, 256]⟩

/-! ## Constants: ½ and 1 as the words both programs carry -/

def half : EReal := Ideal.ofBits .f32 0x3F000000#32
def one : EReal := Ideal.ofBits .f32 0x3F800000#32

/-! ## One tile -/

/-- The one-hot entry: 1 where the label word is class k, else 0. -/
def oh (w : BitVec 32) (k : ℕ) : EReal := if w = BitVec.ofNat 32 k then 1 else 0

/-- Row r of the tile minus the centre its label selects, the selection written as a sum over the 128 padded classes. -/
def blkD (lb : BL.Idx → BitVec 32) (cp : BC.Idx → EReal) (xb : BX.Idx → EReal) (r : Fin 4096) (f : Fin 256) : EReal :=
  xb (ix2 r f) - ∑ k : Fin 128, oh (lb (ix2 (0 : Fin 1) r)) k.val * cp (ix2 k f)

/-- The tile's share of the loss: ½ · Σ_r Σ_f d(r, f)². -/
def blkLoss (lb : BL.Idx → BitVec 32) (cp : BC.Idx → EReal) (xb : BX.Idx → EReal) : EReal :=
  half * ∑ r : Fin 4096, ∑ f : Fin 256, blkD lb cp xb r f * blkD lb cp xb r f

/-- The tile's share of class k's sum of differences: Σ_r [label r = k] · d(r, f). -/
def blkDelta (lb : BL.Idx → BitVec 32) (cp : BC.Idx → EReal) (xb : BX.Idx → EReal) (k : Fin 128) (f : Fin 256) : EReal :=
  ∑ r : Fin 4096, oh (lb (ix2 (0 : Fin 1) r)) k.val * blkD lb cp xb r f

/-! ## The 32 tiles of the whole arrays -/

/-- Row r of tile t is row 4096·t + r of the whole table. -/
def grow (t : Fin 32) (r : Fin 4096) : Fin 131072 := ⟨t.val * 4096 + r.val, by have := t.isLt; have := r.isLt; omega⟩

def xBlk (X : SX.Idx → EReal) (t : Fin 32) : BX.Idx → EReal :=
  fun y => X (ix2 (grow t ⟨(y 0).val, idx2_lt0 y⟩) ⟨(y 1).val, idx2_lt1 y⟩)

def lbBlk (Lb : SLb.Idx → BitVec 32) (t : Fin 32) : BL.Idx → BitVec 32 :=
  fun y => Lb (ix1 (grow t ⟨(y 1).val, idx2_lt1 y⟩))

/-- The centre table with 42 zero rows appended. -/
def cPad (C : SC.Idx → EReal) : BC.Idx → EReal :=
  fun y => if h : (y 0).val < 86 then C (ix2 ⟨(y 0).val, h⟩ ⟨(y 1).val, idx2_lt1 y⟩) else 0

def tLoss (X : SX.Idx → EReal) (Lb : SLb.Idx → BitVec 32) (C : SC.Idx → EReal) (t : Fin 32) : EReal :=
  blkLoss (lbBlk Lb t) (cPad C) (xBlk X t)

def tDelta (X : SX.Idx → EReal) (Lb : SLb.Idx → BitVec 32) (C : SC.Idx → EReal) (k : Fin 128) (f : Fin 256) (t : Fin 32) : EReal :=
  blkDelta (lbBlk Lb t) (cPad C) (xBlk X t) k f

/-- A per-tile quantity as a function of a natural tile number (0 past the last tile). -/
def atTile (g : Fin 32 → EReal) (n : ℕ) : EReal := if h : n < 32 then g ⟨n, h⟩ else 0

/-- The running sum after tile n: it restarts from 0 at every tile whose number is a multiple of 16. -/
def acc (g : ℕ → EReal) : ℕ → EReal
  | 0 => 0 + g 0
  | n + 1 => if (n + 1) % 16 = 0 then 0 + g (n + 1) else acc g n + g (n + 1)

/-- What each run of 16 tiles ends with. -/
def lossOut (X : SX.Idx → EReal) (Lb : SLb.Idx → BitVec 32) (C : SC.Idx → EReal) : OL.Idx → EReal :=
  fun i => acc (atTile (tLoss X Lb C)) ((i 0).val * 16 + 15)

def deltaOut (X : SX.Idx → EReal) (Lb : SLb.Idx → BitVec 32) (C : SC.Idx → EReal) : OD.Idx → EReal :=
  fun i => acc (atTile (tDelta X Lb C ⟨(i 1).val, (i 1).isLt⟩ ⟨(i 2).val, (i 2).isLt⟩)) ((i 0).val * 16 + 15)

/-- The loss as the tiled computation ends with it: the two runs added. -/
def KLoss (X : SX.Idx → EReal) (Lb : SLb.Idx → BitVec 32) (C : SC.Idx → EReal) : S0.Idx → EReal :=
  fun _ => 0 + ∑ i : OL.Idx, lossOut X Lb C i

/-- The new centres as the tiled computation ends with them: the two runs' class sums added, the first 86 classes
    kept, each scaled by ½ / (1 + count) for a given per-class count `cnt`, and added to the old centre. -/
def KCent (X : SX.Idx → EReal) (Lb : SLb.Idx → BitVec 32) (C : SC.Idx → EReal) (cnt : SCnt.Idx → EReal) : SC.Idx → EReal :=
  fun j => C j + (0 + ∑ cc : Fin 2, deltaOut X Lb C
      (ix3 cc (⟨(j 0).val, by have := idx2_lt0 j; omega⟩ : Fin 128) (⟨(j 1).val, idx2_lt1 j⟩ : Fin 256)))
    * Ideal.div half (one + cnt (ix1 ⟨(j 0).val, idx2_lt0 j⟩))

/-! ## The same over the reals -/

def diff (x : Fin 131072 → Fin 256 → ℝ) (lab : Fin 131072 → Fin 86) (c : Fin 86 → Fin 256 → ℝ) (n : Fin 131072) (f : Fin 256) : ℝ :=
  x n f - c (lab n) f

def loss (x : Fin 131072 → Fin 256 → ℝ) (lab : Fin 131072 → Fin 86) (c : Fin 86 → Fin 256 → ℝ) : ℝ :=
  (1 / 2) * ∑ n : Fin 131072, ∑ f : Fin 256, diff x lab c n f * diff x lab c n f

/-- Centre k after the update, for per-class counts `cn`. -/
def newCenter (x : Fin 131072 → Fin 256 → ℝ) (lab : Fin 131072 → Fin 86) (c : Fin 86 → Fin 256 → ℝ) (cn : Fin 86 → ℝ)
    (k : Fin 86) (f : Fin 256) : ℝ :=
  c k f + (∑ n : Fin 131072, if lab n = k then diff x lab c n f else 0) * ((1 / 2) / (1 + cn k))

/-- The inputs are real tables and in-range labels. -/
structure RealInputs (X : SX.Idx → EReal) (Lb : SLb.Idx → BitVec 32) (C : SC.Idx → EReal)
    (x : Fin 131072 → Fin 256 → ℝ) (lab : Fin 131072 → Fin 86) (c : Fin 86 → Fin 256 → ℝ) : Prop where
  hX : ∀ n f, X (ix2 n f) = ((x n f : ℝ) : EReal)
  hL : ∀ n, Lb (ix1 n) = BitVec.ofNat 32 (lab n).val
  hC : ∀ k f, C (ix2 k f) = ((c k f : ℝ) : EReal)

def GLoss (x : Fin 131072 → Fin 256 → ℝ) (lab : Fin 131072 → Fin 86) (c : Fin 86 → Fin 256 → ℝ) : S0.Idx → EReal :=
  fun _ => ((loss x lab c : ℝ) : EReal)

def GCent (x : Fin 131072 → Fin 256 → ℝ) (lab : Fin 131072 → Fin 86) (c : Fin 86 → Fin 256 → ℝ) (cn : Fin 86 → ℝ) : SC.Idx → EReal :=
  fun j => ((newCenter x lab c cn ⟨(j 0).val, idx2_lt0 j⟩ ⟨(j 1).val, idx2_lt1 j⟩ : ℝ) : EReal)

end Cert.CenterLoss

end
-- ==== Proof.KPayload.lean ====
/-
  The tile body's arithmetic read at an index, over the extended reals: the one-hot product against the padded
  centre table is the selected centre row, the two lane sums and the ½ give the tile's share of the loss, and the
  second one-hot product gives each class's sum of differences over the tile.
-/
import proofs.«403531_j19035295056206_3_alg».proof.Proof.Gen.KernelIdeal.Skeleton
import proofs.«403531_j19035295056206_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.CenterLoss.Payload

open Idealize.ShloMosaic Idealize.ShloMosaic.ValueIdx
open Cert.KernelIdeal Cert.KernelIdeal.Gen Cert.CenterLoss

/-! ## The two products' operand indices

The first product contracts axis 0 of the one-hot table [128, 4096] with axis 0 of the centre table [128, 256]:
entry (r, f) of the result reads the one-hot table at (k, r) and the centres at (k, f). The second contracts axis 1 of
the one-hot table with axis 0 of the differences [4096, 256]: entry (k, f) reads the one-hot table at (k, r) and the
differences at (r, f). One lemma per operand axis, for any contraction index. -/

private theorem lhsA_0 (i : S4096x256.Idx) (q : dot_S128x4096_S128x256_S4096x256_0_0_1_1_n_n.contr.Idx) :
    (dot_S128x4096_S128x256_S4096x256_0_0_1_1_n_n.lhsIdx i q 0).val = (q ⟨0, by decide⟩).val :=
  dot_S128x4096_S128x256_S4096x256_0_0_1_1_n_n.lhsIdx_val_of_single rfl i q

private theorem lhsA_1 (i : S4096x256.Idx) (q : dot_S128x4096_S128x256_S4096x256_0_0_1_1_n_n.contr.Idx) :
    (dot_S128x4096_S128x256_S4096x256_0_0_1_1_n_n.lhsIdx i q 1).val = (i 0).val := by
  unfold DotDims.lhsIdx
  rw [dif_neg (show ¬(1 : Fin S128x4096.rank) ∈ dot_S128x4096_S128x256_S4096x256_0_0_1_1_n_n.lhsBatch by decide),
    dif_pos (show (1 : Fin S128x4096.rank) ∈ dot_S128x4096_S128x256_S4096x256_0_0_1_1_n_n.lhsNonContracting by decide)]
  rfl

private theorem rhsA_0 (i : S4096x256.Idx) (q : dot_S128x4096_S128x256_S4096x256_0_0_1_1_n_n.contr.Idx) :
    (dot_S128x4096_S128x256_S4096x256_0_0_1_1_n_n.rhsIdx i q 0).val = (q ⟨0, by decide⟩).val :=
  dot_S128x4096_S128x256_S4096x256_0_0_1_1_n_n.rhsIdx_val_of_single rfl i q

private theorem rhsA_1 (i : S4096x256.Idx) (q : dot_S128x4096_S128x256_S4096x256_0_0_1_1_n_n.contr.Idx) :
    (dot_S128x4096_S128x256_S4096x256_0_0_1_1_n_n.rhsIdx i q 1).val = (i 1).val := by
  unfold DotDims.rhsIdx
  rw [dif_neg (show ¬(1 : Fin S128x256.rank) ∈ dot_S128x4096_S128x256_S4096x256_0_0_1_1_n_n.rhsBatch by decide),
    dif_pos (show (1 : Fin S128x256.rank) ∈ dot_S128x4096_S128x256_S4096x256_0_0_1_1_n_n.rhsNonContracting by decide)]
  rfl

private theorem lhsB_0 (i : S128x256.Idx) (q : dot_S128x4096_S4096x256_S128x256_1_0_0_1_n_n.contr.Idx) :
    (dot_S128x4096_S4096x256_S128x256_1_0_0_1_n_n.lhsIdx i q 0).val = (i 0).val := by
  unfold DotDims.lhsIdx
  rw [dif_neg (show ¬(0 : Fin S128x4096.rank) ∈ dot_S128x4096_S4096x256_S128x256_1_0_0_1_n_n.lhsBatch by decide),
    dif_pos (show (0 : Fin S128x4096.rank) ∈ dot_S128x4096_S4096x256_S128x256_1_0_0_1_n_n.lhsNonContracting by decide)]
  rfl

private theorem lhsB_1 (i : S128x256.Idx) (q : dot_S128x4096_S4096x256_S128x256_1_0_0_1_n_n.contr.Idx) :
    (dot_S128x4096_S4096x256_S128x256_1_0_0_1_n_n.lhsIdx i q 1).val = (q ⟨0, by decide⟩).val :=
  dot_S128x4096_S4096x256_S128x256_1_0_0_1_n_n.lhsIdx_val_of_single rfl i q

private theorem rhsB_0 (i : S128x256.Idx) (q : dot_S128x4096_S4096x256_S128x256_1_0_0_1_n_n.contr.Idx) :
    (dot_S128x4096_S4096x256_S128x256_1_0_0_1_n_n.rhsIdx i q 0).val = (q ⟨0, by decide⟩).val :=
  dot_S128x4096_S4096x256_S128x256_1_0_0_1_n_n.rhsIdx_val_of_single rfl i q

private theorem rhsB_1 (i : S128x256.Idx) (q : dot_S128x4096_S4096x256_S128x256_1_0_0_1_n_n.contr.Idx) :
    (dot_S128x4096_S4096x256_S128x256_1_0_0_1_n_n.rhsIdx i q 1).val = (i 1).val := by
  unfold DotDims.rhsIdx
  rw [dif_neg (show ¬(1 : Fin S4096x256.rank) ∈ dot_S128x4096_S4096x256_S128x256_1_0_0_1_n_n.rhsBatch by decide),
    dif_pos (show (1 : Fin S4096x256.rank) ∈ dot_S128x4096_S4096x256_S128x256_1_0_0_1_n_n.rhsNonContracting by decide)]
  rfl

/-! ## The one-hot table -/

/-- A one-bit comparison widened to a word and read as a signed integer is the 0/1 indicator. -/
private theorem indicator_word (w : BitVec 32) (k : ℕ) :
    (((((IntOp.cmpi .eq (BitVec.ofNat 32 k) w).setWidth 32).toInt : ℤ) : ℝ) : EReal) = oh w k := by
  unfold oh IntOp.cmpi
  by_cases h : w = BitVec.ofNat 32 k
  · subst h
    rw [if_pos rfl]
    simp
  · rw [if_neg h]
    have h' : (BitVec.ofNat 32 k == w) = false := by
      simpa [beq_eq_false_iff_ne] using fun e : BitVec.ofNat 32 k = w => h e.symm
    simp [h']

/-- Entry (k, r) of the one-hot table: 1 where row r's label word is class k, else 0. -/
private theorem pay4_apply (lb : Vec Ideal S1x4096 .i32) (k : Fin 128) (r : Fin 4096) :
    k0_pay4 (F := Ideal) lb (ix2 k r) = oh (lb (ix2 (0 : Fin 1) r)) k.val := by
  unfold k0_pay4
  refine Eq.trans ?_ (indicator_word (lb (ix2 (0 : Fin 1) r)) k.val)
  show (((((IntOp.cmpi .eq (iota .tc S128x4096 32 [0] iota_S128x4096_d0_w32 (ix2 k r))
      (broadcastTo S128x4096 (shapeCast S1x4096 lb shapeCasts_S1x4096_S1x4096) broadcasts_S1x4096_S128x4096 (ix2 k r))).setWidth 32).toInt : ℤ) : ℝ) : EReal) = _
  have e1 : iota .tc S128x4096 32 [0] iota_S128x4096_d0_w32 (ix2 k r) = BitVec.ofNat 32 k.val :=
    iota_single_apply .tc S128x4096 32 0 iota_S128x4096_d0_w32 (ix2 k r)
  have e2 : broadcastTo S128x4096 (shapeCast S1x4096 lb shapeCasts_S1x4096_S1x4096) broadcasts_S1x4096_S128x4096 (ix2 k r)
      = lb (ix2 (0 : Fin 1) r) :=
    (broadcastTo_1b_ab_apply _ broadcasts_S1x4096_S128x4096 k r).trans
      (congrFun (shapeCast_self lb shapeCasts_S1x4096_S1x4096) _)
  rw [e1, e2]

/-! ## The differences: the first product -/

/-- Entry (r, f) of the tile's differences: the feature minus the one-hot product against the padded centres. -/
private theorem pay5_apply (lb : Vec Ideal S1x4096 .i32) (cp : Vec Ideal S128x256 .f32) (xb : Vec Ideal S4096x256 .f32)
    (r : Fin 4096) (f : Fin 256) :
    k0_pay5 (F := Ideal) lb cp xb (ix2 r f) = blkD lb cp xb r f := by
  unfold k0_pay5 blkD
  refine congrArg (fun t => xb (ix2 r f) - t) ?_
  refine (Ideal.matmul_constant_zero_apply dot_S128x4096_S128x256_S4096x256_0_0_1_1_n_n none (k0_pay4 (F := Ideal) lb)
    (truncf .bf16 (shapeCast S128x256 cp shapeCasts_S128x256_S128x256) bitsLt_bf16_f32) (ix2 r f)).trans ?_
  rw [← Equiv.sum_comp (contrEquiv1 dot_S128x4096_S128x256_S4096x256_0_0_1_1_n_n 128 rfl rfl).symm]
  refine Finset.sum_congr rfl fun k _ => ?_
  have hk := contrEquiv1_symm_val dot_S128x4096_S128x256_S4096x256_0_0_1_1_n_n 128 rfl rfl k
  have el : dot_S128x4096_S128x256_S4096x256_0_0_1_1_n_n.lhsIdx (ix2 r f)
      ((contrEquiv1 dot_S128x4096_S128x256_S4096x256_0_0_1_1_n_n 128 rfl rfl).symm k) = ix2 k r :=
    funext fun a => Fin.ext (by
      match a with
      | ⟨0, _⟩ => exact (lhsA_0 _ _).trans hk
      | ⟨1, _⟩ => exact lhsA_1 _ _)
  have er : dot_S128x4096_S128x256_S4096x256_0_0_1_1_n_n.rhsIdx (ix2 r f)
      ((contrEquiv1 dot_S128x4096_S128x256_S4096x256_0_0_1_1_n_n 128 rfl rfl).symm k) = ix2 k f :=
    funext fun a => Fin.ext (by
      match a with
      | ⟨0, _⟩ => exact (rhsA_0 _ _).trans hk
      | ⟨1, _⟩ => exact rhsA_1 _ _)
  rw [el, er, pay4_apply]
  refine congrArg (fun t => oh (lb (ix2 (0 : Fin 1) r)) k.val * t) ?_
  exact congrFun (shapeCast_self cp shapeCasts_S128x256_S128x256) (ix2 k f)

/-! ## The class sums: the second product -/

/-- Entry (k, f) of the second product: the sum over the tile's rows of the one-hot entry times the difference. -/
private theorem pay7_apply (lb : Vec Ideal S1x4096 .i32) (cp : Vec Ideal S128x256 .f32) (xb : Vec Ideal S4096x256 .f32)
    (k : Fin 128) (f : Fin 256) :
    k0_pay7 (F := Ideal) lb cp xb (ix2 k f) = blkDelta lb cp xb k f := by
  unfold k0_pay7 blkDelta
  refine (Ideal.matmul_constant_zero_apply dot_S128x4096_S4096x256_S128x256_1_0_0_1_n_n none (k0_pay4 (F := Ideal) lb)
    (truncf .bf16 (k0_pay5 (F := Ideal) lb cp xb) bitsLt_bf16_f32) (ix2 k f)).trans ?_
  rw [← Equiv.sum_comp (contrEquiv1 dot_S128x4096_S4096x256_S128x256_1_0_0_1_n_n 4096 rfl rfl).symm]
  refine Finset.sum_congr rfl fun r _ => ?_
  have hr := contrEquiv1_symm_val dot_S128x4096_S4096x256_S128x256_1_0_0_1_n_n 4096 rfl rfl r
  have el : dot_S128x4096_S4096x256_S128x256_1_0_0_1_n_n.lhsIdx (ix2 k f)
      ((contrEquiv1 dot_S128x4096_S4096x256_S128x256_1_0_0_1_n_n 4096 rfl rfl).symm r) = ix2 k r :=
    funext fun a => Fin.ext (by
      match a with
      | ⟨0, _⟩ => exact lhsB_0 _ _
      | ⟨1, _⟩ => exact (lhsB_1 _ _).trans hr)
  have er : dot_S128x4096_S4096x256_S128x256_1_0_0_1_n_n.rhsIdx (ix2 k f)
      ((contrEquiv1 dot_S128x4096_S4096x256_S128x256_1_0_0_1_n_n 4096 rfl rfl).symm r) = ix2 r f :=
    funext fun a => Fin.ext (by
      match a with
      | ⟨0, _⟩ => exact (rhsB_0 _ _).trans hr
      | ⟨1, _⟩ => exact rhsB_1 _ _)
  rw [el, er, pay4_apply]
  exact congrArg (fun t => oh (lb (ix2 (0 : Fin 1) r)) k.val * t) (pay5_apply lb cp xb r f)

/-! ## Lane sums, and a vector viewed as a column -/

/-- A vector [a] cast to a column [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along a row's 256 entries. -/
private theorem rowSum_apply (v : FVec Ideal S4096x256 .f32) (hφ : FKind.Formats .f32)
    (hacc : (0x00000000#32 : BitVec 32) = FKind.add.neutral .f32 hφ) (r : Fin 4096) :
    multiReduction (F := Ideal) .add [1] S4096 v 0x00000000#32 reduces_S4096x256_S4096 hφ hacc (ix1 r)
      = ∑ f : Fin 256, v (ix2 r f) := by
  refine (Ideal.multiReduction_add_single v 0x00000000#32 reduces_S4096x256_S4096 hφ hacc (ix1 r)).trans ?_
  refine Finset.sum_congr rfl fun f _ => congrArg v ?_
  funext a
  apply Fin.ext
  match a with
  | ⟨0, _⟩ => rfl
  | ⟨1, _⟩ => rfl

/-- The sum down the column of 4096 row sums. -/
private theorem colSum_apply (v : FVec Ideal S4096x1 .f32) (hφ : FKind.Formats .f32)
    (hacc : (0x00000000#32 : BitVec 32) = FKind.add.neutral .f32 hφ) (c : Fin 1) :
    multiReduction (F := Ideal) .add [0] S1 v 0x00000000#32 reduces_S4096x1_S1 hφ hacc (ix1 c)
      = ∑ r : Fin 4096, v (ix2 r (0 : Fin 1)) := by
  refine (Ideal.multiReduction_add_single v 0x00000000#32 reduces_S4096x1_S1 hφ hacc (ix1 c)).trans ?_
  refine Finset.sum_congr rfl fun r _ => congrArg v ?_
  funext a
  apply Fin.ext
  match a with
  | ⟨0, _⟩ => rfl
  | ⟨1, _⟩ =>
    show c.val = 0
    omega

/-! ## The carried class sums -/

/-- The carried class sums [1, 128, 256] viewed [128, 256]. -/
private theorem pay8_apply (old : Vec Ideal S1x128x256 .f32) (k : Fin 128) (f : Fin 256) :
    k0_pay8 (F := Ideal) old (ix2 k f) = old (ix3 (0 : Fin 1) k f) := by
  unfold k0_pay8
  exact shapeCast_1ab_ab_apply old shapeCasts_S1x128x256_S128x256 k f

variable (lb : Vec Ideal S1x4096 .i32) (cp : Vec Ideal S128x256 .f32) (xb : Vec Ideal S4096x256 .f32)

/-- The zero the loss cell is reset to. -/
theorem pay2_eq : k0_pay2 (F := Ideal) = fun _ => (0 : EReal) := by
  funext j
  obtain ⟨a, b, c, rfl⟩ : ∃ (a : Fin 1) (b : Fin 1) (c : Fin 1), j = ix3 a b c := ⟨j 0, j 1, j 2, eq_ix3 j⟩
  unfold k0_pay2
  refine (shapeCast_ab_1ab_apply _ shapeCasts_S1x1_S1x1x1 a b c).trans ?_
  exact Ideal.ofBits_zero_f32

/-- The zero the class sums are reset to. -/
theorem pay3_eq : k0_pay3 (F := Ideal) = fun _ => (0 : EReal) := by
  funext j
  obtain ⟨a, b, c, rfl⟩ : ∃ (a : Fin 1) (b : Fin 128) (c : Fin 256), j = ix3 a b c := ⟨j 0, j 1, j 2, eq_ix3 j⟩
  unfold k0_pay3
  refine (shapeCast_ab_1ab_apply _ shapeCasts_S128x256_S1x128x256 a b c).trans ?_
  exact Ideal.ofBits_zero_f32

/-- The loss cell after a tile: what it held plus ½ · Σ_r Σ_f d(r, f)². -/
theorem pay6_eq (old : Vec Ideal S1x1x1 .f32) :
    k0_pay6 (F := Ideal) lb cp xb old = fun _ => old (ix3 (0 : Fin 1) (0 : Fin 1) (0 : Fin 1)) + blkLoss lb cp xb := by
  funext j
  obtain ⟨a, b, c, rfl⟩ : ∃ (a : Fin 1) (b : Fin 1) (c : Fin 1), j = ix3 a b c := ⟨j 0, j 1, j 2, eq_ix3 j⟩
  obtain rfl : a = 0 := Subsingleton.elim _ _
  obtain rfl : b = 0 := Subsingleton.elim _ _
  obtain rfl : c = 0 := Subsingleton.elim _ _
  unfold k0_pay6 blkLoss
  refine (shapeCast_ab_1ab_apply _ shapeCasts_S1x1_S1x1x1 0 0 0).trans ?_
  refine (addf_apply _ _ _).trans ?_
  refine congrArg₂ (· + ·) (shapeCast_1ab_ab_apply old shapeCasts_S1x1x1_S1x1 0 0) ?_
  refine (mulf_apply _ _ _).trans ?_
  refine congrArg₂ (· * ·) rfl ?_
  refine (shapeCast_a_1a_apply _ shapeCasts_S1_S1x1 0 0).trans ?_
  refine (colSum_apply _ _ _ 0).trans ?_
  refine Finset.sum_congr rfl fun r _ => ?_
  refine (shapeCast_a_a1_apply _ shapeCasts_S4096_S4096x1 r 0).trans ?_
  refine (rowSum_apply _ _ _ r).trans ?_
  refine Finset.sum_congr rfl fun f _ => ?_
  refine (mulf_apply _ _ _).trans ?_
  rw [pay5_apply]

/-- The class sums after a tile: what they held plus Σ_r [label r = k] · d(r, f). -/
theorem pay1_eq (old : Vec Ideal S1x128x256 .f32) :
    k0_pay1 (F := Ideal) (k0_pay7 lb cp xb) (k0_pay8 old)
      = fun j => old j + blkDelta lb cp xb ⟨(j 1).val, (j 1).isLt⟩ ⟨(j 2).val, (j 2).isLt⟩ := by
  funext j
  obtain ⟨u, k, f, rfl⟩ : ∃ (u : Fin 1) (k : Fin 128) (f : Fin 256), j = ix3 u k f := ⟨j 0, j 1, j 2, eq_ix3 j⟩
  obtain rfl : u = 0 := Subsingleton.elim _ _
  unfold k0_pay1
  refine (shapeCast_ab_1ab_apply _ shapeCasts_S128x256_S1x128x256 0 k f).trans ?_
  refine (addf_apply _ _ _).trans ?_
  exact congrArg₂ (· + ·) (pay8_apply old k f) (pay7_apply lb cp xb k f)

end Cert.CenterLoss.Payload

end
-- ==== Proof.KBlocks.lean ====
/-
  Each tile's three input blocks, read off the whole arrays: tile t of the feature table is its rows
  4096·t … 4096·t + 4095, the labels' tile is the same range of the label row (the labels only re-laid as
  one row of 131072 words before the tiles are cut), and the centre block is the whole padded table at every tile.
-/
import proofs.«403531_j19035295056206_3_alg».proof.Proof.Gen.KernelIdeal.Frame
import proofs.«403531_j19035295056206_3_alg».proof.Proof.Spec
import Idealize.ShloMosaic.Lib.Pipeline.Value
import Idealize.ShloMosaic.Lib.StableHlo.Run
import Idealize.ShloMosaic.Lib.KernelVsHost

set_option maxRecDepth 16384

noncomputable section

namespace Cert.CenterLoss.Blocks

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.CenterLoss

variable (m : (ℓ : Loc nD τ sig) → Buf (Elt Ideal) ℓ)

/-- The three argument arrays on core `c`. -/
abbrev Xof (c : Dev nD) : SX.Idx → EReal := m ((c : Thread nD τ).loc main_arg0)
abbrev Lof (c : Dev nD) : SLb.Idx → BitVec 32 := m ((c : Thread nD τ).loc main_arg1)
abbrev Cof (c : Dev nD) : SC.Idx → EReal := m ((c : Thread nD τ).loc main_arg2)

/-- A grid point as a tile number below 32. -/
abbrev tileOf (t : Fin cfg0.N) : Fin 32 := ⟨t.val, lt_of_lt_of_eq t.isLt N_0⟩

/-- The block index of each input window at grid point t, on each axis: the feature tiles run down the rows,
    the label tiles along the one row, the centre block stays put. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-- The feature block of tile t. -/
theorem xblk_eq (c : Dev nD) (t : Fin cfg0.N) :
    (iblk m c 0 t : Vec Ideal S4096x256 .f32) = xBlk (Xof m c) (tileOf t) := by
  funext y
  obtain ⟨e0, e1, -⟩ := idx_facts t
  show V m c main_arg0 (((cfg0.win 0).blk t).view.emb y) = _
  rw [V_main_arg0]
  unfold xBlk
  refine congrArg _ (funext fun a => Fin.ext ?_)
  match a with
  | ⟨0, _⟩ => show win0_0.index t (0 : Fin 2) * 4096 + 1 * (y 0).val = t.val * 4096 + (y 0).val; omega
  | ⟨1, _⟩ => show win0_0.index t (1 : Fin 2) * 256 + 1 * (y 1).val = (y 1).val; omega

/-- The label row as the tiles are cut from it: the label vector re-laid as one row of 131072 words. -/
private theorem V_main_v4 (c : Dev nD) :
    (V m c main_v4 : S1x131072.Idx → BitVec 32) = shapeCast S1x131072 (Lof m c) shapeCasts_S131072_S1x131072 := by
  dsimp only [Gen.V, Gen.V0]
  simp only [Gen.hostOps0, Gen.hostOps0_1, List.flatten_cons, List.flatten_nil, List.append_nil, List.cons_append,
    List.nil_append]
  after_results
  rfl

/-- Entry (0, q) of the re-laid label row is label q. -/
private theorem relaid_apply (L : SLb.Idx → BitVec 32) (j : S1x131072.Idx) (q : Fin 131072)
    (h0 : (j 0).val = 0) (h1 : (j 1).val = q.val) :
    shapeCast S1x131072 L shapeCasts_S131072_S1x131072 j = L (ix1 q) := by
  refine shapeCast_apply _ _ _ _ ?_
  rw [Shape.rowMajor_val_one, Shape.rowMajor_val_two]
  show q.val = (j 0).val * 131072 + (j 1).val
  omega

/-- The label block of tile t. -/
theorem lblk_eq (c : Dev nD) (t : Fin cfg0.N) :
    (iblk m c 1 t : Vec Ideal S1x4096 .i32) = lbBlk (Lof m c) (tileOf t) := by
  funext y
  obtain ⟨-, -, e0, e1, -⟩ := idx_facts t
  show V m c main_v4 (((cfg0.win 1).blk t).view.emb y) = _
  rw [V_main_v4]
  unfold lbBlk
  have hy0 : (y 0).val < 1 := idx2_lt0 y
  refine relaid_apply _ _ _ ?_ ?_
  · show win0_1.index t (0 : Fin 2) * 1 + 1 * (y 0).val = 0; omega
  · show win0_1.index t (1 : Fin 2) * 4096 + 1 * (y 1).val = t.val * 4096 + (y 1).val; omega

/-- The centre table as the tiles read it: 42 rows of the converted integer zero appended. -/
private theorem V_main_v5 (c : Dev nD) :
    (V m c main_v5 : S128x256.Idx → EReal)
      = pad S128x256 ![0, 0] ![42, 0] ![0, 0] (Cof m c) (sitofp (F := Ideal) .f32 (constantI S_ 32 0#32))
          pads_S86x256_S128x256_0420_000 h_S_ := by
  dsimp only [Gen.V, Gen.V0]
  simp only [Gen.hostOps0, Gen.hostOps0_1, List.flatten_cons, List.flatten_nil, List.append_nil, List.cons_append,
    List.nil_append]
  after_results
  rfl

/-- The appended table read at an index: the centre's row below 86, zero from row 86 on. -/
private theorem padded_apply (C : SC.Idx → EReal) (j y : S128x256.Idx) (h0 : (j 0).val = (y 0).val) (h1 : (j 1).val = (y 1).val) :
    pad S128x256 ![0, 0] ![42, 0] ![0, 0] C (sitofp (F := Ideal) .f32 (constantI S_ 32 0#32))
      pads_S86x256_S128x256_0420_000 h_S_ j = cPad C y := by
  unfold cPad
  by_cases h : (y 0).val < 86
  · rw [dif_pos h]
    refine pad_apply_of_inside _ _ _ _ _ _ _ j (ix2 (⟨(y 0).val, h⟩ : Fin 86) (⟨(y 1).val, idx2_lt1 y⟩ : Fin 256)) ?_
    intro a
    match a with
    | ⟨0, _⟩ => show (j 0).val = 0 + (y 0).val * (0 + 1); omega
    | ⟨1, _⟩ => show (j 1).val = 0 + (y 1).val * (0 + 1); omega
  · rw [dif_neg h]
    refine (pad_apply_of_not_inside _ _ _ _ _ _ _ j (0 : Fin 2) ?_).trans ?_
    · rintro ⟨-, -, h3⟩
      have h3' : ((j 0).val - 0) / (0 + 1) < 86 := h3
      rw [Nat.sub_zero, Nat.zero_add, Nat.div_one] at h3'
      omega
    · exact sitofp_zero (φ := .f32)

/-- The centre block: the padded table, at every tile. -/
theorem cblk_eq (c : Dev nD) (t : Fin cfg0.N) :
    (iblk m c 2 t : Vec Ideal S128x256 .f32) = cPad (Cof m c) := by
  funext y
  obtain ⟨-, -, -, -, e0, e1⟩ := idx_facts t
  show V m c main_v5 (((cfg0.win 2).blk t).view.emb y) = _
  rw [V_main_v5]
  refine padded_apply _ _ _ ?_ ?_
  · show win0_2.index t (0 : Fin 2) * 128 + 1 * (y 0).val = (y 0).val; omega
  · show win0_2.index t (1 : Fin 2) * 256 + 1 * (y 1).val = (y 1).val; omega

end Cert.CenterLoss.Blocks

end
-- ==== Proof.KAccum.lean ====
/-
  The two result tiles after every grid point: the running sums of the tiles' shares, restarted at the first
  tile of each run of 16 — by induction on the point, each step one of the two control cases.
-/
import proofs.«403531_j19035295056206_3_alg».proof.Proof.KPieces
import proofs.«403531_j19035295056206_3_alg».proof.Proof.KPayload
import proofs.«403531_j19035295056206_3_alg».proof.Proof.KBlocks

set_option maxRecDepth 16384

noncomputable section

namespace Cert.CenterLoss.Accum

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.CenterLoss
open Cert.CenterLoss.Blocks

variable (m : (ℓ : Loc nD τ sig) → Buf (Elt Ideal) ℓ)

/-! ### The running sum, one tile at a time -/

/-- At a tile whose number is a multiple of 16 the running sum restarts from zero. -/
private theorem acc_reset (g : ℕ → EReal) (n : ℕ) (h : n % 16 = 0) : acc g n = 0 + g n := by
  cases n with
  | zero => rfl
  | succ k =>
    show (if (k + 1) % 16 = 0 then 0 + g (k + 1) else acc g k + g (k + 1)) = _
    rw [if_pos h]

/-- At any other tile it is the sum up to the tile before plus this tile's term. -/
private theorem acc_carry (g : ℕ → EReal) (n : ℕ) (h : ¬n % 16 = 0) : acc g n = acc g (n - 1) + g n := by
  cases n with
  | zero => exact absurd (Nat.zero_mod 16) h
  | succ k =>
    show (if (k + 1) % 16 = 0 then 0 + g (k + 1) else acc g k + g (k + 1)) = _
    rw [if_neg h]
    rfl

/-- A per-tile quantity at a grid point's number is the quantity at that tile. -/
private theorem atTile_point (g : Fin 32 → EReal) (t : Fin cfg0.N) : atTile g t.val = g (tileOf t) := by
  unfold atTile
  rw [dif_pos (lt_of_lt_of_eq t.isLt N_0)]

/-! ### One tile's shares, from its three blocks -/

/-- The loss share computed from the blocks of point t is tile t's share. -/
private theorem loss_point (c : Dev nD) (t : Fin cfg0.N) :
    blkLoss (iblk m c 1 t : Vec Ideal S1x4096 .i32) (iblk m c 2 t : Vec Ideal S128x256 .f32)
        (iblk m c 0 t : Vec Ideal S4096x256 .f32)
      = atTile (tLoss (Xof m c) (Lof m c) (Cof m c)) t.val := by
  rw [atTile_point, lblk_eq m c t, cblk_eq m c t, xblk_eq m c t]
  rfl

/-- The class sums computed from the blocks of point t are tile t's. -/
private theorem delta_point (c : Dev nD) (t : Fin cfg0.N) (k : Fin 128) (f : Fin 256) :
    blkDelta (iblk m c 1 t : Vec Ideal S1x4096 .i32) (iblk m c 2 t : Vec Ideal S128x256 .f32)
        (iblk m c 0 t : Vec Ideal S4096x256 .f32) k f
      = atTile (tDelta (Xof m c) (Lof m c) (Cof m c) k f) t.val := by
  rw [atTile_point, lblk_eq m c t, cblk_eq m c t, xblk_eq m c t]
  rfl

/-! ### What each control case leaves, as arithmetic on the blocks -/

section Cases

variable (c : Dev nD) (i : grid0.Coords)
  (arg2 : Memref sig .tc .vmem S4096x256 .f32) (harg2 : arg2.IsWhole)
  (arg3 : Memref sig .tc .vmem S1x4096 .i32) (harg3 : arg3.IsWhole)
  (arg4 : Memref sig .tc .vmem S128x256 .f32) (harg4 : arg4.IsWhole)
  (arg5 : Memref sig .tc .vmem S1x1x1 .f32) (harg5 : arg5.IsWhole)
  (arg6 : Memref sig .tc .vmem S1x128x256 .f32) (harg6 : arg6.IsWhole)
  (x0 : Vec Ideal S4096x256 .f32) (x1 : Vec Ideal S1x4096 .i32) (x2 : Vec Ideal S128x256 .f32)

/-- First tile of a run: the loss cell holds zero plus the tile's share. -/
private theorem lossA_val (hc0 : cond0_0 i) :
    out0_A_3 (F := Ideal) c i arg2 harg2 arg3 harg3 arg4 harg4 arg5 harg5 arg6 harg6 hc0 x0 x1 x2
      = fun _ => 0 + blkLoss x1 x2 x0 := by
  refine (Pieces.lossA (F := Ideal) c i arg2 harg2 arg3 harg3 arg4 harg4 arg5 harg5 arg6 harg6 x0 x1 x2 hc0).trans ?_
  rw [Payload.pay2_eq]
  exact Payload.pay6_eq x1 x2 x0 (fun _ => 0)

/-- First tile of a run: the class sums hold zero plus the tile's. -/
private theorem deltaA_val (hc0 : cond0_0 i) :
    out0_A_4 (F := Ideal) c i arg2 harg2 arg3 harg3 arg4 harg4 arg5 harg5 arg6 harg6 hc0 x0 x1 x2
      = fun j => 0 + blkDelta x1 x2 x0 ⟨(j 1).val, (j 1).isLt⟩ ⟨(j 2).val, (j 2).isLt⟩ := by
  refine (Pieces.deltaA (F := Ideal) c i arg2 harg2 arg3 harg3 arg4 harg4 arg5 harg5 arg6 harg6 x0 x1 x2 hc0).trans ?_
  rw [Payload.pay3_eq]
  exact Payload.pay1_eq x1 x2 x0 (fun _ => 0)

/-- A later tile: the loss cell holds what it held plus the tile's share. -/
private theorem lossB_val (hc0 : ¬cond0_0 i) (xo3 : Vec Ideal S1x1x1 .f32) (xo4 : Vec Ideal S1x128x256 .f32) :
    out0_B_3 (F := Ideal) c i arg2 harg2 arg3 harg3 arg4 harg4 arg5 harg5 arg6 harg6 hc0 x0 x1 x2 xo3 xo4
      = fun _ => xo3 (ix3 (0 : Fin 1) (0 : Fin 1) (0 : Fin 1)) + blkLoss x1 x2 x0 :=
  (Pieces.lossB (F := Ideal) c i arg2 harg2 arg3 harg3 arg4 harg4 arg5 harg5 arg6 harg6 x0 x1 x2 hc0 xo3 xo4).trans
    (Payload.pay6_eq x1 x2 x0 xo3)

/-- A later tile: the class sums hold what they held plus the tile's. -/
private theorem deltaB_val (hc0 : ¬cond0_0 i) (xo3 : Vec Ideal S1x1x1 .f32) (xo4 : Vec Ideal S1x128x256 .f32) :
    out0_B_4 (F := Ideal) c i arg2 harg2 arg3 harg3 arg4 harg4 arg5 harg5 arg6 harg6 hc0 x0 x1 x2 xo3 xo4
      = fun j => xo4 j + blkDelta x1 x2 x0 ⟨(j 1).val, (j 1).isLt⟩ ⟨(j 2).val, (j 2).isLt⟩ :=
  (Pieces.deltaB (F := Ideal) c i arg2 harg2 arg3 harg3 arg4 harg4 arg5 harg5 arg6 harg6 x0 x1 x2 hc0 xo3 xo4).trans
    (Payload.pay1_eq x1 x2 x0 xo4)

end Cases

/-! ### The two running sums as the result tiles hold them -/

/-- The loss cell's running sum after tile n. -/
abbrev lossAcc (c : Dev nD) (n : ℕ) : Vec Ideal S1x1x1 .f32 :=
  fun _ => acc (atTile (tLoss (Xof m c) (Lof m c) (Cof m c))) n

/-- The class-sum tile's running sums after tile n. -/
abbrev deltaAcc (c : Dev nD) (n : ℕ) : Vec Ideal S1x128x256 .f32 :=
  fun j => acc (atTile (tDelta (Xof m c) (Lof m c) (Cof m c) ⟨(j 1).val, (j 1).isLt⟩ ⟨(j 2).val, (j 2).isLt⟩)) n

/-- A point that starts a run of 16: both result tiles restart from zero and take the tile's shares. -/
private theorem step_reset (c : Dev nD) (t : Fin cfg0.N) (h0 : t.val % 16 = 0) :
    outsAt0 (F := Ideal) m c t.val t.isLt = (lossAcc m c t.val, deltaAcc m c t.val) := by
  rw [outsAt0_A m c t h0]
  refine congrArg₂ Prod.mk ?_ ?_
  · refine (lossA_val c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) ((hcond0_0 t).mpr h0)).trans ?_
    funext u
    show (0 : EReal) + blkLoss (iblk m c 1 t : Vec Ideal S1x4096 .i32) (iblk m c 2 t : Vec Ideal S128x256 .f32)
        (iblk m c 0 t : Vec Ideal S4096x256 .f32) = acc (atTile (tLoss (Xof m c) (Lof m c) (Cof m c))) t.val
    rw [acc_reset _ _ h0, loss_point m c t]
  · refine (deltaA_val c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) ((hcond0_0 t).mpr h0)).trans ?_
    funext j
    show (0 : EReal) + blkDelta (iblk m c 1 t : Vec Ideal S1x4096 .i32) (iblk m c 2 t : Vec Ideal S128x256 .f32)
        (iblk m c 0 t : Vec Ideal S4096x256 .f32) ⟨(j 1).val, (j 1).isLt⟩ ⟨(j 2).val, (j 2).isLt⟩
      = acc (atTile (tDelta (Xof m c) (Lof m c) (Cof m c) ⟨(j 1).val, (j 1).isLt⟩ ⟨(j 2).val, (j 2).isLt⟩)) t.val
    rw [acc_reset _ _ h0, delta_point m c t]

/-- Any other point: both result tiles add the tile's shares to what the point before left. -/
private theorem step_carry (c : Dev nD) (t : Fin cfg0.N) (h0 : ¬t.val % 16 = 0)
    (ih : outsAt0 (F := Ideal) m c (t.val - 1) (Nat.lt_of_le_of_lt (Nat.sub_le _ _) t.isLt)
      = (lossAcc m c (t.val - 1), deltaAcc m c (t.val - 1))) :
    outsAt0 (F := Ideal) m c t.val t.isLt = (lossAcc m c t.val, deltaAcc m c t.val) := by
  rw [outsAt0_B m c t h0, ih]
  dsimp only
  refine congrArg₂ Prod.mk ?_ ?_
  · refine (lossB_val c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (fun h => h0 ((hcond0_0 t).mp h))
      (lossAcc m c (t.val - 1)) (deltaAcc m c (t.val - 1))).trans ?_
    funext u
    show acc (atTile (tLoss (Xof m c) (Lof m c) (Cof m c))) (t.val - 1)
        + blkLoss (iblk m c 1 t : Vec Ideal S1x4096 .i32) (iblk m c 2 t : Vec Ideal S128x256 .f32)
          (iblk m c 0 t : Vec Ideal S4096x256 .f32) = acc (atTile (tLoss (Xof m c) (Lof m c) (Cof m c))) t.val
    rw [acc_carry _ _ h0, loss_point m c t]
  · refine (deltaB_val c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (fun h => h0 ((hcond0_0 t).mp h))
      (lossAcc m c (t.val - 1)) (deltaAcc m c (t.val - 1))).trans ?_
    funext j
    show acc (atTile (tDelta (Xof m c) (Lof m c) (Cof m c) ⟨(j 1).val, (j 1).isLt⟩ ⟨(j 2).val, (j 2).isLt⟩)) (t.val - 1)
        + blkDelta (iblk m c 1 t : Vec Ideal S1x4096 .i32) (iblk m c 2 t : Vec Ideal S128x256 .f32)
          (iblk m c 0 t : Vec Ideal S4096x256 .f32) ⟨(j 1).val, (j 1).isLt⟩ ⟨(j 2).val, (j 2).isLt⟩
      = acc (atTile (tDelta (Xof m c) (Lof m c) (Cof m c) ⟨(j 1).val, (j 1).isLt⟩ ⟨(j 2).val, (j 2).isLt⟩)) t.val
    rw [acc_carry _ _ h0, delta_point m c t]

/-- After point n the loss cell holds the running sum of the tiles' loss shares and the class-sum tile the
    running sum of their class sums. -/
theorem outs_eq (c : Dev nD) (n : ℕ) (hn : n < cfg0.N) :
    outsAt0 (F := Ideal) m c n hn
      = ((fun _ => acc (atTile (tLoss (Xof m c) (Lof m c) (Cof m c))) n : Vec Ideal S1x1x1 .f32),
         (fun j => acc (atTile (tDelta (Xof m c) (Lof m c) (Cof m c) ⟨(j 1).val, (j 1).isLt⟩ ⟨(j 2).val, (j 2).isLt⟩)) n
            : Vec Ideal S1x128x256 .f32)) := by
  induction n with
  | zero => exact step_reset m c ⟨0, hn⟩ (Nat.zero_mod 16)
  | succ k ih =>
    by_cases h0 : (k + 1) % 16 = 0
    · exact step_reset m c ⟨k + 1, hn⟩ h0
    · exact step_carry m c ⟨k + 1, hn⟩ h0 (ih (Nat.lt_of_succ_lt hn))

end Cert.CenterLoss.Accum

end
-- ==== Proof.KFinal.lean ====
/-
  The two result arrays after the last grid point: slab cc of each is what the last tile of run cc left
  (the tile is written back when the run ends), so the arrays are the two runs' totals.
-/
import proofs.«403531_j19035295056206_3_alg».proof.Proof.KAccum

set_option maxRecDepth 16384

noncomputable section

namespace Cert.CenterLoss.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.CenterLoss
open Cert.CenterLoss.Blocks

variable (m : (ℓ : Loc nD τ sig) → Buf (Elt Ideal) ℓ)

/-! ## Where the result tiles sit in their arrays -/

/-- The loss cell of point t is slab t / 16 of the loss array (the other two block coordinates are 0). -/
theorem idx_loss : ∀ t : Fin cfg0.N, win0_3.index t (0 : Fin 3) = t.val / 16
    ∧ win0_3.index t (1 : Fin 3) = 0 ∧ win0_3.index t (2 : Fin 3) = 0 :=
  (by decide +kernel : ∀ t : Fin grid0.N, _)

/-- The class-sum tile of point t is slab t / 16 of the class-sum array. -/
theorem idx_delta : ∀ t : Fin cfg0.N, win0_4.index t (0 : Fin 3) = t.val / 16
    ∧ win0_4.index t (1 : Fin 3) = 0 ∧ win0_4.index t (2 : Fin 3) = 0 :=
  (by decide +kernel : ∀ t : Fin grid0.N, _)

/-- The last point of run cc. -/
abbrev lastOf (cc : ℕ) (h : cc < 2) : Fin cfg0.N := ⟨cc * 16 + 15, by rw [show cfg0.N = 32 from N_0]; omega⟩

/-- The class-sum total at an index whose coordinates are known. -/
theorem deltaOut_at (X : SX.Idx → EReal) (L : SLb.Idx → BitVec 32) (C : SC.Idx → EReal) (i : OD.Idx)
    (k : Fin 128) (f : Fin 256) (n : ℕ) (hk : (i 1).val = k.val) (hf : (i 2).val = f.val)
    (hn : (i 0).val * 16 + 15 = n) :
    deltaOut X L C i = acc (atTile (tDelta X L C k f)) n := by
  subst hn
  have ek : (⟨(i 1).val, (i 1).isLt⟩ : Fin 128) = k := Fin.ext hk
  have ef : (⟨(i 2).val, (i 2).isLt⟩ : Fin 256) = f := Fin.ext hf
  unfold deltaOut
  rw [ek, ef]

/-! ## What a run's last point writes back -/

/-- The point that ends a run writes the run's loss total into its slab. -/
theorem flushed_loss (c : Dev nD) (t : Fin cfg0.N) (hf : (cfg0.win 3).flush t = true) :
    (dats (F := Ideal) m 0 c).flushed 3 t
      = ((cfg0.win 3).blk t).view.read (Elt Ideal) (lossOut (Xof m c) (Lof m c) (Cof m c)) := by
  show (cfg0.win 3).cut (grid0.coords t) ((dats m 0 c).after 3 t) = _
  rw [after0_3, Cert.CenterLoss.Accum.outs_eq]
  funext j
  rw [View.read_apply]
  have ht : t.val % 16 = 15 := (flush0_3 t).mp hf
  obtain ⟨e0, e1, e2⟩ := idx_loss t
  show acc (atTile (tLoss (Xof m c) (Lof m c) (Cof m c))) t.val
    = acc (atTile (tLoss (Xof m c) (Lof m c) (Cof m c))) (((((cfg0.win 3).blk t).view.emb j) 0).val * 16 + 15)
  have hj : ((((cfg0.win 3).blk t).view.emb j) 0).val = win0_3.index t (0 : Fin 3) * 1 + 1 * (j 0).val := rfl
  have hj0 : (j 0).val < 1 := (j 0).isLt
  rw [hj, e0]
  congr 1
  omega

/-- The point that ends a run writes the run's class sums into its slab. -/
theorem flushed_delta (c : Dev nD) (t : Fin cfg0.N) (hf : (cfg0.win 4).flush t = true) :
    (dats (F := Ideal) m 0 c).flushed 4 t
      = ((cfg0.win 4).blk t).view.read (Elt Ideal) (deltaOut (Xof m c) (Lof m c) (Cof m c)) := by
  show (cfg0.win 4).cut (grid0.coords t) ((dats m 0 c).after 4 t) = _
  rw [after0_4, Cert.CenterLoss.Accum.outs_eq]
  funext j
  rw [View.read_apply]
  have ht : t.val % 16 = 15 := (flush0_4 t).mp hf
  obtain ⟨e0, e1, e2⟩ := idx_delta t
  have hj0 : (j 0).val < 1 := (j 0).isLt
  have h0 : ((((cfg0.win 4).blk t).view.emb j) 0).val = win0_4.index t (0 : Fin 3) * 1 + 1 * (j 0).val := rfl
  have h1 : ((((cfg0.win 4).blk t).view.emb j) 1).val = win0_4.index t (1 : Fin 3) * 128 + 1 * (j 1).val := rfl
  have h2 : ((((cfg0.win 4).blk t).view.emb j) 2).val = win0_4.index t (2 : Fin 3) * 256 + 1 * (j 2).val := rfl
  show acc (atTile (tDelta (Xof m c) (Lof m c) (Cof m c) ⟨(j 1).val, (j 1).isLt⟩ ⟨(j 2).val, (j 2).isLt⟩)) t.val = _
  exact (deltaOut_at (Xof m c) (Lof m c) (Cof m c) (((cfg0.win 4).blk t).view.emb j)
    ⟨(j 1).val, (j 1).isLt⟩ ⟨(j 2).val, (j 2).isLt⟩ t.val
    (by rw [h1, e1]; show 0 * 128 + 1 * (j 1).val = (j 1).val; omega)
    (by rw [h2, e2]; show 0 * 256 + 1 * (j 2).val = (j 2).val; omega)
    (by rw [h0, e0]; omega)).symm

/-! ## The two slabs fill each array -/

theorem cover_loss (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  refine ⟨lastOf (i 0).val h0, (flush0_3 _).mpr (by show ((i 0).val * 16 + 15) % 16 = 15; omega), ?_⟩
  obtain ⟨e0, e1, e2⟩ := idx_loss (lastOf (i 0).val h0)
  have e0' : win0_3.index (lastOf (i 0).val h0) (0 : Fin 3) = (i 0).val := by
    rw [e0]; show ((i 0).val * 16 + 15) / 16 = (i 0).val; omega
  show i ∈ ((View.whole main_v6_0).slice (win0_3.rect (lastOf (i 0).val h0))).set
  rw [View.set_slice_whole, Rect.mem_set_unit]
  intro a
  match a with
  | ⟨0, _⟩ =>
    show win0_3.index (lastOf (i 0).val h0) (0 : Fin 3) * 1 ≤ (i 0).val
      ∧ (i 0).val < win0_3.index (lastOf (i 0).val h0) (0 : Fin 3) * 1 + 1
    rw [e0']; omega
  | ⟨1, _⟩ =>
    show win0_3.index (lastOf (i 0).val h0) (1 : Fin 3) * 1 ≤ (i 1).val
      ∧ (i 1).val < win0_3.index (lastOf (i 0).val h0) (1 : Fin 3) * 1 + 1
    rw [e1]; omega
  | ⟨2, _⟩ =>
    show win0_3.index (lastOf (i 0).val h0) (2 : Fin 3) * 1 ≤ (i 2).val
      ∧ (i 2).val < win0_3.index (lastOf (i 0).val h0) (2 : Fin 3) * 1 + 1
    rw [e2]; omega

theorem cover_delta (i : S2x128x256.Idx) :
    ∃ t : Fin cfg0.N, (cfg0.win 4).flush t = true ∧ i ∈ ((cfg0.win 4).blk t).view.set := by
  have h0 : (i 0).val < 2 := (i 0).isLt
  have h1 : (i 1).val < 128 := (i 1).isLt
  have h2 : (i 2).val < 256 := (i 2).isLt
  refine ⟨lastOf (i 0).val h0, (flush0_4 _).mpr (by show ((i 0).val * 16 + 15) % 16 = 15; omega), ?_⟩
  obtain ⟨e0, e1, e2⟩ := idx_delta (lastOf (i 0).val h0)
  have e0' : win0_4.index (lastOf (i 0).val h0) (0 : Fin 3) = (i 0).val := by
    rw [e0]; show ((i 0).val * 16 + 15) / 16 = (i 0).val; omega
  show i ∈ ((View.whole main_v6_1).slice (win0_4.rect (lastOf (i 0).val h0))).set
  rw [View.set_slice_whole, Rect.mem_set_unit]
  intro a
  match a with
  | ⟨0, _⟩ =>
    show win0_4.index (lastOf (i 0).val h0) (0 : Fin 3) * 1 ≤ (i 0).val
      ∧ (i 0).val < win0_4.index (lastOf (i 0).val h0) (0 : Fin 3) * 1 + 1
    rw [e0']; omega
  | ⟨1, _⟩ =>
    show win0_4.index (lastOf (i 0).val h0) (1 : Fin 3) * 128 ≤ (i 1).val
      ∧ (i 1).val < win0_4.index (lastOf (i 0).val h0) (1 : Fin 3) * 128 + 128
    rw [e1]; omega
  | ⟨2, _⟩ =>
    show win0_4.index (lastOf (i 0).val h0) (2 : Fin 3) * 256 ≤ (i 2).val
      ∧ (i 2).val < win0_4.index (lastOf (i 0).val h0) (2 : Fin 3) * 256 + 256
    rw [e2]; omega

/-! ## The arrays after the last point -/

theorem final_loss (c : Dev nD) :
    ((dats (F := Ideal) m 0 c).arrAt 3 cfg0.N : Vec Ideal S2x1x1 .f32) = lossOut (Xof m c) (Lof m c) (Cof m c) :=
  (dats (F := Ideal) m 0 c).arrAt_eq_of_cover 3 (lossOut (Xof m c) (Lof m c) (Cof m c))
    (fun t hf => flushed_loss m c t hf) cover_loss

theorem final_delta (c : Dev nD) :
    ((dats (F := Ideal) m 0 c).arrAt 4 cfg0.N : Vec Ideal S2x128x256 .f32) = deltaOut (Xof m c) (Lof m c) (Cof m c) :=
  (dats (F := Ideal) m 0 c).arrAt_eq_of_cover 4 (deltaOut (Xof m c) (Lof m c) (Cof m c))
    (fun t hf => flushed_delta m c t hf) cover_delta

end Cert.CenterLoss.Final

end
-- ==== Proof.KTail.lean ====
/-
  The operations after the tiled region: the two runs' loss totals added; the two runs' class sums added, the
  first 86 classes kept, scaled per class by ½ / (1 + count) and added to the old centres — and with them the
  whole program's run with both results named.
-/
import proofs.«403531_j19035295056206_3_alg».proof.Proof.KFinal
import Idealize.ShloMosaic.Lib.IdealHost

set_option maxRecDepth 16384

noncomputable section

namespace Cert.CenterLoss.Tail

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.CenterLoss
open Cert.CenterLoss.Blocks

variable (m : (ℓ : Loc nD τ sig) → Buf (Elt Ideal) ℓ) (ρ : Dev nD → PrngReg)

/-- The per-class row counts as this program computes them: ones scattered and added at the labels. -/
def kcnt (Lb : SLb.Idx → BitVec 32) : SCnt.Idx → EReal :=
  Host.scatterAdd (F := Ideal) scatter_S86_S131072x1_S131072_n_0_0_1
    (broadcastInDim S86 ![] bcast_S_S86 (constant S_ .f32 0x00000000#32))
    (broadcastInDim S131072x1 ![0] bcast_S131072_S131072x1_0 Lb)
    (broadcastInDim S131072 ![] bcast_S_S131072 (constant S_ .f32 0x3F800000#32))

/-! ## What the closing operations read -/

/-- The counts are computed before the tiled region from the labels alone, and the region leaves them alone. -/
theorem counts_eq (c : Dev nD) : (V (F := Ideal) m c main_v3 : SCnt.Idx → EReal) = kcnt (Lof m c) := by
  dsimp only [Gen.V, Gen.V0]
  simp only [Gen.hostOps0, Gen.hostOps0_1, List.flatten_cons, List.flatten_nil, List.append_nil, List.cons_append,
    List.nil_append]
  after_results
  rfl

/-- After the region the loss array holds the two runs' loss totals, -/
theorem arr_loss (c : Dev nD) :
    Pipeline.withArrays (cfgs 0).spec c (V0 (F := Ideal) m c) (fun w => (dats m 0 c).arrAt w (cfgs 0).N)
        (Proc.devRef .tc main_v6_0)
      = lossOut (Xof m c) (Lof m c) (Cof m c) :=
  (Pipeline.withArrays_arr spec0 launch0.win.arr_inj c _ _ 3).trans (Cert.CenterLoss.Final.final_loss m c)

/-- the class-sum array the two runs' class sums, -/
theorem arr_delta (c : Dev nD) :
    Pipeline.withArrays (cfgs 0).spec c (V0 (F := Ideal) m c) (fun w => (dats m 0 c).arrAt w (cfgs 0).N)
        (Proc.devRef .tc main_v6_1)
      = deltaOut (Xof m c) (Lof m c) (Cof m c) :=
  (Pipeline.withArrays_arr spec0 launch0.win.arr_inj c _ _ 4).trans (Cert.CenterLoss.Final.final_delta m c)

/-- the centre table is the argument, -/
theorem arr_cent (c : Dev nD) :
    Pipeline.withArrays (cfgs 0).spec c (V0 (F := Ideal) m c) (fun w => (dats m 0 c).arrAt w (cfgs 0).N)
        (Proc.devRef .tc main_arg2)
      = Cof m c :=
  (Pipeline.withArrays_of_ne _ c (V0 m c) _ main_arg2
    (by exact (by decide : ∀ w, Pipeline.arrRef spec0 w ≠ main_arg2))).trans (V_main_arg2 m c)

/-- and the counts are the labels' counts. -/
theorem arr_cnt (c : Dev nD) :
    Pipeline.withArrays (cfgs 0).spec c (V0 (F := Ideal) m c) (fun w => (dats m 0 c).arrAt w (cfgs 0).N)
        (Proc.devRef .tc main_v3)
      = kcnt (Lof m c) :=
  (Pipeline.withArrays_of_ne _ c (V0 m c) _ main_v3
    (by exact (by decide : ∀ w, Pipeline.arrRef spec0 w ≠ main_v3))).trans (counts_eq m c)

/-! ## The closing operations at an index -/

/-- The two slabs added from zero, the first 86 classes kept: at class p and feature f the sum over the two runs. -/
theorem sum_slabs (D : OD.Idx → EReal) (p : Fin 86) (q : Fin 256) :
    extractStridedSlice S86x256 ![0, 0]
        (Host.reduceAdd (F := Ideal) D (constant (F := Ideal) S_ .f32 0x00000000#32)
          reducesTo_S2x128x256_S128x256_d0 h_S_)
        slices_S128x256_S86x256_0_0 (ix2 p q)
      = 0 + ∑ cc : Fin 2, D (ix3 cc (⟨p.val, by have := p.isLt; omega⟩ : Fin 128) q) := by
  have hR : S2x128x256.Reduces [0] S128x256 := by decide
  refine (extractStridedSlice_apply ![0, 0] _ slices_S128x256_S86x256_0_0 (ix2 p q)
    (ix2 (⟨p.val, by have := p.isLt; omega⟩ : Fin 128) q) (fun a => by
      match a with
      | ⟨0, _⟩ => show p.val = 0 + p.val; omega
      | ⟨1, _⟩ => show q.val = 0 + q.val; omega)).trans ?_
  rw [hostReduceAdd_apply, Ideal.hostReduceAdd_single _ hR]
  show Ideal.ofBits .f32 0x00000000#32
    + ∑ k : Fin 2, D (hR.lift (ix2 (⟨p.val, by have := p.isLt; omega⟩ : Fin 128) q) k) = _
  rw [Ideal.ofBits_zero_f32]
  refine congrArg (0 + ·) (Finset.sum_congr rfl fun cc _ => congrArg D (funext fun a => ?_))
  match a with
  | ⟨0, _⟩ => exact Fin.ext rfl
  | ⟨1, _⟩ => exact Fin.ext rfl
  | ⟨2, _⟩ => exact Fin.ext rfl

/-- The per-class scale ½ / (1 + count), copied along each class's row. -/
theorem scale_at (cnt : SCnt.Idx → EReal) (p : Fin 86) (q : Fin 256) :
    broadcastInDim S86x256 ![0, 1] bcast_S86x1_S86x256_0_1
        (broadcastInDim S86x1 ![0] bcast_S86_S86x1_0
          (Host.divf (F := Ideal)
            (broadcastInDim S86 ![] bcast_S_S86 (constant (F := Ideal) S_ .f32 0x3F000000#32))
            (addf (broadcastInDim S86 ![] bcast_S_S86 (constant (F := Ideal) S_ .f32 0x3F800000#32)) cnt)))
        (ix2 p q)
      = Ideal.div half (one + cnt (ix1 p)) := by
  refine (broadcastInDim_apply ![0, 1] bcast_S86x1_S86x256_0_1 _ (ix2 p q) (ix2 p (0 : Fin 1)) (fun a => by
      match a with
      | ⟨0, _⟩ => rfl
      | ⟨1, _⟩ => rfl)).trans ?_
  refine (broadcastInDim_apply ![0] bcast_S86_S86x1_0 _ (ix2 p (0 : Fin 1)) (ix1 p) (fun a => by
      match a with
      | ⟨0, _⟩ => rfl)).trans ?_
  rw [hostDivf_apply, addf_apply, broadcastInDim_scalar_apply, broadcastInDim_scalar_apply]
  rfl

/-! ## The two results -/

/-- The loss: the two runs' totals added from zero. -/
theorem tail_loss (c : Dev nD) :
    Pipeline.afterTail₀ cfgs (dats (F := Ideal) m) 0 (V0 m) [hostOps1] c main_v7
      = KLoss (Xof m c) (Lof m c) (Cof m c) := by
  unfold Pipeline.afterTail₀
  show StableHlo.after hostOps1 _ (Proc.devRef .tc main_v7) = _
  after_results
  rw [arr_loss]
  funext j
  rw [hostReduceAdd_apply, Ideal.hostReduceAdd_total _ (fun b => b.elim0)]
  show Ideal.ofBits .f32 0x00000000#32 + _ = 0 + _
  rw [Ideal.ofBits_zero_f32]

/-- The new centres: the old centre plus the class's summed differences times the class's scale. -/
theorem tail_cent (c : Dev nD) :
    Pipeline.afterTail₀ cfgs (dats (F := Ideal) m) 0 (V0 m) [hostOps1] c main_v17
      = KCent (Xof m c) (Lof m c) (Cof m c) (kcnt (Lof m c)) := by
  unfold Pipeline.afterTail₀
  show StableHlo.after hostOps1 _ (Proc.devRef .tc main_v17) = _
  after_results
  rw [arr_cent, arr_delta, arr_cnt]
  funext j
  obtain ⟨p, q, rfl⟩ : ∃ (p : Fin 86) (q : Fin 256), j = ix2 p q := ⟨j 0, j 1, eq_ix2 j⟩
  rw [addf_apply, mulf_apply, sum_slabs, scale_at]
  rfl

/-- Every weakly fair execution ends with the loss at `KLoss` and the new centres at `KCent` of the argument
    arrays, the arguments unchanged. -/
theorem kernel_value :
    θ_run defs (onTc (τ := τ) (main (F := Ideal))) ⟨m, fun _ => 0, ρ⟩ (fun r => ∀ c : Dev nD,
      r.2.mem ((c : Thread nD τ).loc main_v7) = KLoss (Xof m c) (Lof m c) (Cof m c)
      ∧ r.2.mem ((c : Thread nD τ).loc main_v17) = KCent (Xof m c) (Lof m c) (Cof m c) (kcnt (Lof m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c =>
    ⟨((h c).2 main_v7 (Pipeline.mem_restRefs_of main_v7 (by decide) (by decide))).trans (tail_loss m c),
      ((h c).2 main_v17 (Pipeline.mem_restRefs_of main_v17 (by decide) (by decide))).trans (tail_cent m c),
      ((h c).1 0).trans (((dats m 0 c).arrAt_in 0 rfl _).trans ((A_eq m c 0).trans (V_main_arg0 m c))),
      ((h c).2 main_arg1 (Pipeline.mem_restRefs_of main_arg1 (by decide) (by decide))).trans
        (W_main_arg1 m (dats m) c),
      ((h c).2 main_arg2 (Pipeline.mem_restRefs_of main_arg2 (by decide) (by decide))).trans
        (W_main_arg2 m (dats m) c)⟩)
    (run_main m ρ)

end Cert.CenterLoss.Tail

end
-- ==== Proof.RefIndex.lean ====
/-
  Where the reference's three index-driven operations read and write: the row lookup `centres[label]` and the
  count lookup `counts[label]` read the table at the start word taken signed and clamped into 0 … 85; the
  scattered row update lands update (n, f') on (k, f) exactly when the start word of row n is k and f' = f.
-/
import proofs.«403531_j19035295056206_3_alg».proof.Proof.Gen.ReferenceIdeal
import Idealize.ShloMosaic.Lib.ValueIdx
import Idealize.ShloMosaic.Lib.StableHlo.Predicate

noncomputable section

namespace Cert.CenterLoss.RefIndex

open Idealize.ShloMosaic Idealize.ShloMosaic.ValueIdx
open Cert.ReferenceIdeal Cert.ReferenceIdeal.Gen

/-! ## The row lookup

The record of the row lookup: operand axis 0 is collapsed and is the one axis the start word addresses, operand
axis 1 is kept whole (slice 1 × 256) and is the result's axis 1; the start words form a column, one word per
result row. So result entry (n, f) reads operand row "start word of n, clamped" and operand column f. -/

/-- The row lookup's record. -/
private abbrev dR : GatherDims S86x256 S131072x1 S131072x256 :=
  gather_S86x256_S131072x1_S131072x256_1_0_n_n_0_1_1256

/-- Result entry (n, f) reads its start word at (n, 0) of the index column: the result's one batch axis, axis 0,
    gives the column's row, and the index vector has one component. -/
private theorem siIdx_rows (n : Fin 131072) (f : Fin 256) (c : Fin dR.startIndexMap.length) :
    dR.siIdx (ix2 n f) c = ix2 n (0 : Fin 1) := by
  funext b
  refine Fin.ext ?_
  match b with
  | ⟨0, _⟩ => rfl
  | ⟨1, _⟩ =>
    show c.val = 0
    have h1 : dR.startIndexMap.length = 1 := rfl
    have h2 := c.isLt
    omega

/-- The row lookup at (n, f): row `clamp(start n)` of the table, entry f. -/
theorem gather_rows {α : Type} (x : S86x256.Idx → α) (idx : IVec S131072x1 32) (n : Fin 131072) (f : Fin 256) :
    Host.gather gather_S86x256_S131072x1_S131072x256_1_0_n_n_0_1_1256 x idx (ix2 n f)
      = x (ix2 (⟨min (idx (ix2 n (0 : Fin 1))).toInt.toNat 85, by omega⟩ : Fin 86) f) := by
  unfold Host.gather
  congr 1
  funext a
  refine Fin.ext ?_
  -- no operand axis is a batching axis
  have hob : ∀ a : Fin S86x256.rank, a ∉ dR.operandBatchingDims := fun _ => List.not_mem_nil
  match a with
  | ⟨0, _⟩ =>
    -- axis 0 is collapsed: no offset coordinate; the start word is clamped into 0 … 86 − 1
    have hk : (0 : Fin S86x256.rank) ∉ dR.sKept := fun h => ((dR.mem_sKept 0).mp h).1 (List.mem_singleton.mpr rfl)
    show dR.start (ix2 n f) idx 0 + dR.batchCoord (ix2 n f) 0 + dR.offCoord (ix2 n f) 0
      = min (idx (ix2 n (0 : Fin 1))).toInt.toNat 85
    rw [dR.batchCoord_eq_zero _ _ (hob 0), dR.offCoord_eq_zero _ _ hk]
    simp only [Nat.add_zero]
    unfold GatherDims.start
    rw [dif_pos (show (0 : Fin S86x256.rank) ∈ dR.startIndexMap from List.mem_singleton.mpr rfl), siIdx_rows]
    rfl
  | ⟨1, _⟩ =>
    -- axis 1 is not addressed by the start word (start 0) and is the kept axis: the offset is the result's column
    have hk : (1 : Fin S86x256.rank) ∈ dR.sKept := (dR.mem_sKept 1).mpr ⟨by decide, hob 1⟩
    have hs : dR.start (ix2 n f) idx 1 = 0 := by
      unfold GatherDims.start
      exact dif_neg (by decide)
    have ho : dR.offCoord (ix2 n f) 1 = f.val := by
      unfold GatherDims.offCoord
      rw [dif_pos hk]
      rfl
    show dR.start (ix2 n f) idx 1 + dR.batchCoord (ix2 n f) 1 + dR.offCoord (ix2 n f) 1 = f.val
    rw [dR.batchCoord_eq_zero _ _ (hob 1), hs, ho, Nat.add_zero, Nat.zero_add]

/-! ## The count lookup

The same lookup on a table of rank 1: the library's statement for a rank-1 table addressed by a column of start
words applies once the two ways of writing a rank-1 index and a column's index are identified. -/

/-- A rank-1 index written by cases on its one axis is the one written by its value. -/
private theorem ix1_eq_ofFin {m : Nat} (p : Fin m) : (ix1 p : (⟨1, ![m]⟩ : Shape).Idx) = Shape.Idx.ofFin p := by
  funext a
  match a with
  | ⟨0, _⟩ => rfl

/-- Row p of a column, written either way. -/
private theorem ix2_zero_eq_ixP {m : Nat} (p : Fin m) :
    (ix2 p (0 : Fin 1) : (⟨2, ![m, 1]⟩ : Shape).Idx) = StableHlo.Predicate.ixP p := by
  funext a
  match a with
  | ⟨0, _⟩ => rfl
  | ⟨1, _⟩ => rfl

/-- The count lookup at n: entry `clamp(start n)` of the vector. -/
theorem gather_count {α : Type} (x : S86.Idx → α) (idx : IVec S131072x1 32) (n : Fin 131072) :
    Host.gather gather_S86_S131072x1_S131072_n_0_n_n_0_1_1 x idx (ix1 n)
      = x (ix1 (⟨min (idx (ix2 n (0 : Fin 1))).toInt.toNat 85, by omega⟩ : Fin 86)) := by
  rw [ix1_eq_ofFin n]
  refine (StableHlo.Predicate.gather_take gather_S86_S131072x1_S131072_n_0_n_n_0_1_1 rfl rfl rfl rfl x idx n
    (Nat.succ_pos 85)).trans (congrArg x ?_)
  -- the two entries read are the same entry: compare their one coordinate
  funext a
  refine Fin.ext ?_
  match a with
  | ⟨0, _⟩ =>
    show min (idx (StableHlo.Predicate.ixP n)).toInt.toNat 85 = min (idx (ix2 n (0 : Fin 1))).toInt.toNat 85
    rw [ix2_zero_eq_ixP]

/-! ## The scattered row update

The record of the row update: operand axis 0 is the inserted axis and the one the start word addresses, operand
axis 1 receives the update's window axis 1. So update entry (n, f') goes to row "start word of n" (read signed, not
clamped) and column f', and is dropped when that row is outside 0 … 85. -/

/-- The row update's record. -/
private abbrev dS : ScatterDims S86x256 S131072x1 S131072x256 :=
  scatter_S86x256_S131072x1_S131072x256_1_0_0_1

/-- Update entry (n, f') reads its start word at (n, 0) of the index column. -/
private theorem siIdx_scatter (n : Fin 131072) (f' : Fin 256) (c : Fin dS.scatterDimsToOperandDims.length) :
    dS.siIdx (ix2 n f') c = ix2 n (0 : Fin 1) := by
  funext b
  refine Fin.ext ?_
  match b with
  | ⟨0, _⟩ => rfl
  | ⟨1, _⟩ =>
    show c.val = 0
    have h1 : dS.scatterDimsToOperandDims.length = 1 := rfl
    have h2 := c.isLt
    omega

/-- The scattered row update: update (n, f') lands on (k, f) exactly when row n's start word is k and f' = f. -/
theorem scatter_rows_iff (idx : IVec S131072x1 32) (n : Fin 131072) (f' : Fin 256) (k : Fin 86) (f : Fin 256) :
    scatter_S86x256_S131072x1_S131072x256_1_0_0_1.resultIdx? (ix2 n f') idx = some (ix2 k f)
      ↔ (idx (ix2 n (0 : Fin 1))).toInt = (k.val : ℤ) ∧ f' = f := by
  -- start and window coordinate on the two operand axes
  have hs0 : dS.start (ix2 n f') idx 0 = (idx (ix2 n (0 : Fin 1))).toInt := by
    unfold ScatterDims.start
    rw [dif_pos (show (0 : Fin S86x256.rank) ∈ dS.scatterDimsToOperandDims from List.mem_singleton.mpr rfl),
      siIdx_scatter]
  have hs1 : dS.start (ix2 n f') idx 1 = 0 := by
    unfold ScatterDims.start
    exact dif_neg (by decide)
  have hw0 : dS.window (ix2 n f') 0 = 0 := by
    unfold ScatterDims.window
    exact dif_neg (by decide)
  have hw1 : dS.window (ix2 n f') 1 = f'.val := by
    unfold ScatterDims.window
    rw [dif_pos (show (1 : Fin S86x256.rank) ∈ dS.sKept by decide)]
    rfl
  have hk := k.isLt
  have hf' := f'.isLt
  unfold ScatterDims.resultIdx?
  constructor
  · intro h
    split at h
    · next hall =>
      -- inside the operand: compare the landing index with (k, f) axis by axis
      have e := Option.some.inj h
      have b0 := (hall 0).1
      have e0 : (dS.start (ix2 n f') idx 0 + (dS.window (ix2 n f') 0 : ℤ)).toNat = k.val :=
        congrArg Fin.val (congrFun e 0)
      have e1 : (dS.start (ix2 n f') idx 1 + (dS.window (ix2 n f') 1 : ℤ)).toNat = f.val :=
        congrArg Fin.val (congrFun e 1)
      rw [hs0, hw0] at e0 b0
      rw [hs1, hw1] at e1
      exact ⟨by omega, Fin.ext (by omega)⟩
    · exact absurd h (by simp)
  · rintro ⟨hW, hf⟩
    have hfv : f'.val = f.val := congrArg Fin.val hf
    split
    · next hall =>
      congr 1
      funext a
      refine Fin.ext ?_
      match a with
      | ⟨0, _⟩ =>
        show (dS.start (ix2 n f') idx 0 + (dS.window (ix2 n f') 0 : ℤ)).toNat = k.val
        rw [hs0, hw0, hW]
        omega
      | ⟨1, _⟩ =>
        show (dS.start (ix2 n f') idx 1 + (dS.window (ix2 n f') 1 : ℤ)).toNat = f.val
        rw [hs1, hw1]
        omega
    · next hn =>
      -- the landing index is inside the operand on both axes
      refine absurd (fun a => ?_) hn
      match a with
      | ⟨0, _⟩ =>
        show 0 ≤ dS.start (ix2 n f') idx 0 + (dS.window (ix2 n f') 0 : ℤ)
          ∧ dS.start (ix2 n f') idx 0 + (dS.window (ix2 n f') 0 : ℤ) < ((86 : ℕ) : ℤ)
        rw [hs0, hw0, hW]
        omega
      | ⟨1, _⟩ =>
        show 0 ≤ dS.start (ix2 n f') idx 1 + (dS.window (ix2 n f') 1 : ℤ)
          ∧ dS.start (ix2 n f') idx 1 + (dS.window (ix2 n f') 1 : ℤ) < ((256 : ℕ) : ℤ)
        rw [hs1, hw1]
        omega

end Cert.CenterLoss.RefIndex

end
-- ==== Proof.BridgeTile.lean ====
/-
  One tile over real inputs with in-range labels, and the bookkeeping between the tiled sums and the plain ones:
  the one-hot entry is the indicator of the row's class, the one-hot product against the padded table picks the
  class's centre row, so the tile's difference is the real d at the tile's global row; a sum over all rows is the
  sum over tiles of the sum over a tile's rows; a run of 16 tiles accumulates to the sum of its 16 shares.
-/
import proofs.«403531_j19035295056206_3_alg».proof.Proof.Spec
import Mathlib.Algebra.BigOperators.Fin
import Mathlib.Data.EReal.Basic

noncomputable section

namespace Cert.CenterLoss.Bridge

open Idealize.ShloMosaic Idealize.ShloMosaic.ValueIdx Cert.CenterLoss

variable {X : SX.Idx → EReal} {Lb : SLb.Idx → BitVec 32} {C : SC.Idx → EReal}
  {x : Fin 131072 → Fin 256 → ℝ} {lab : Fin 131072 → Fin 86} {c : Fin 86 → Fin 256 → ℝ}

/-- A finite sum of reals, read in the extended reals. -/
theorem coe_sum {ι : Type} (s : Finset ι) (f : ι → ℝ) : ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The word 0x3F000000 has sign 0, exponent field 126 and fraction 0: it denotes 2²³ · 2^(126 − 127 − 23) = ½. -/
theorem half_eq : half = (((1 / 2 : ℝ)) : EReal) := by
  unfold half
  simp [Ideal.ofBits, Ideal.ieee, -EReal.coe_mul]
  norm_num

/-- The word 0x3F800000 has sign 0, exponent field 127 and fraction 0: it denotes 2²³ · 2^(127 − 127 − 23) = 1. -/
theorem one_eq : one = ((1 : ℝ) : EReal) := by
  unfold one
  simp [Ideal.ofBits, Ideal.ieee, -EReal.coe_mul]
  norm_num

/-- Tile t and row r of the tile name global row 4096·t + r, and every global row n is named exactly once, by
    t = n / 4096 and r = n mod 4096. -/
private def tileEquiv : Fin 32 × Fin 4096 ≃ Fin 131072 where
  toFun p := grow p.1 p.2
  invFun n := (⟨n.val / 4096, by have := n.isLt; omega⟩, ⟨n.val % 4096, by omega⟩)
  left_inv := by
    rintro ⟨t, r⟩
    have ht := t.isLt
    have hr := r.isLt
    refine Prod.ext (Fin.ext ?_) (Fin.ext ?_)
    · show (t.val * 4096 + r.val) / 4096 = t.val
      omega
    · show (t.val * 4096 + r.val) % 4096 = r.val
      omega
  right_inv := by
    intro n
    apply Fin.ext
    show n.val / 4096 * 4096 + n.val % 4096 = n.val
    omega

/-- All rows, tile by tile. -/
theorem sum_tiles {M : Type} [AddCommMonoid M] (g : Fin 131072 → M) :
    ∑ n : Fin 131072, g n = ∑ t : Fin 32, ∑ r : Fin 4096, g (grow t r) := by
  rw [← Equiv.sum_comp tileEquiv g, Fintype.sum_prod_type]
  rfl

/-- Two naturals below 2³² with the same 32-bit word are equal. -/
private theorem ofNat_inj_small {a b : ℕ} (ha : a < 4294967296) (hb : b < 4294967296) :
    BitVec.ofNat 32 a = BitVec.ofNat 32 b ↔ a = b := by
  constructor
  · intro e
    have e' := congrArg BitVec.toNat e
    rw [BitVec.toNat_ofNat, BitVec.toNat_ofNat] at e'
    omega
  · intro e
    rw [e]

/-- The one-hot entry is the indicator of the row's class. -/
theorem oh_label (h : RealInputs X Lb C x lab c) (t : Fin 32) (r : Fin 4096) (k : Fin 128) :
    oh (lbBlk Lb t (ix2 (0 : Fin 1) r)) k.val = if (lab (grow t r)).val = k.val then 1 else 0 := by
  have e : lbBlk Lb t (ix2 (0 : Fin 1) r) = Lb (ix1 (grow t r)) := rfl
  rw [e, h.hL]
  unfold oh
  have hl := (lab (grow t r)).isLt
  have hk := k.isLt
  exact if_congr (ofNat_inj_small (by omega) (by omega)) rfl rfl

/-- The tile's difference is the real difference at the tile's global row. -/
theorem blkD_real (h : RealInputs X Lb C x lab c) (t : Fin 32) (r : Fin 4096) (f : Fin 256) :
    blkD (lbBlk Lb t) (cPad C) (xBlk X t) r f = ((diff x lab c (grow t r) f : ℝ) : EReal) := by
  have hl := (lab (grow t r)).isLt
  -- the class of the row, as one of the 128 padded classes
  let kk : Fin 128 := ⟨(lab (grow t r)).val, by omega⟩
  have ex : xBlk X t (ix2 r f) = X (ix2 (grow t r) f) := rfl
  have ec : cPad C (ix2 kk f) = C (ix2 (lab (grow t r)) f) := by
    unfold cPad
    rw [dif_pos (show ((ix2 kk f : BC.Idx) 0).val < 86 from hl)]
  have es : ∑ k : Fin 128, oh (lbBlk Lb t (ix2 (0 : Fin 1) r)) k.val * cPad C (ix2 k f)
      = C (ix2 (lab (grow t r)) f) := by
    rw [Finset.sum_eq_single kk]
    · rw [oh_label h, if_pos rfl, one_mul, ec]
    · intro k _ hk
      rw [oh_label h, if_neg, zero_mul]
      intro e
      exact hk (Fin.ext e.symm)
    · intro hk
      exact absurd (Finset.mem_univ kk) hk
  unfold blkD
  rw [ex, es, h.hX, h.hC, ← EReal.coe_sub]
  rfl

/-- Within a run of 16 tiles starting at a multiple of 16, the running sum after the run's tile i is the sum of the
    run's first i + 1 shares. -/
private theorem acc_prefix (g : ℕ → ℝ) (b : ℕ) (hb : b % 16 = 0) : ∀ i : ℕ, i < 16 →
    acc (fun n => ((g n : ℝ) : EReal)) (b + i) = ((∑ j ∈ Finset.range (i + 1), g (b + j) : ℝ) : EReal)
  | 0, _ => by
    cases b with
    | zero => simp [acc]
    | succ m =>
      rw [Nat.add_zero]
      unfold acc
      rw [if_pos hb]
      simp
  | i + 1, hi => by
    have ih := acc_prefix g b hb i (by omega)
    have e : b + (i + 1) = (b + i) + 1 := rfl
    rw [e]
    unfold acc
    rw [if_neg (by omega), ih, Finset.sum_range_succ _ (i + 1), EReal.coe_add]
    rfl

/-- A run of 16 real shares accumulates to their sum. -/
theorem acc_run (g : ℕ → ℝ) (cc : Fin 2) :
    acc (fun n => ((g n : ℝ) : EReal)) (cc.val * 16 + 15) = ((∑ i : Fin 16, g (cc.val * 16 + i.val) : ℝ) : EReal) := by
  rw [acc_prefix g (cc.val * 16) (by omega) 15 (by omega)]
  rw [Fin.sum_univ_eq_sum_range (fun j => g (cc.val * 16 + j)) 16]

end Cert.CenterLoss.Bridge

end
-- ==== Proof.RefLoss.lean ====
/-
  The reference's difference table and loss over real inputs with in-range labels: the negative-label wrap is
  not taken, the clamp leaves the label, so d(n, f) = x(n, f) − c(label n, f), and the loss is ½ · ΣΣ d².
-/
import proofs.«403531_j19035295056206_3_alg».proof.Proof.Gen.ReferenceIdeal.Read
import proofs.«403531_j19035295056206_3_alg».proof.Proof.RefIndex
import proofs.«403531_j19035295056206_3_alg».proof.Proof.BridgeTile

noncomputable section

namespace Cert.CenterLoss.Ref

open Idealize.ShloMosaic Idealize.ShloMosaic.ValueIdx
open Cert.ReferenceIdeal Cert.ReferenceIdeal.Gen Cert.ReferenceIdeal.Read Cert.CenterLoss

variable {X : SX.Idx → EReal} {Lb : SLb.Idx → BitVec 32} {C : SC.Idx → EReal}
  {x : Fin 131072 → Fin 256 → ℝ} {lab : Fin 131072 → Fin 86} {c : Fin 86 → Fin 256 → ℝ}

/-- A class number 0 … 85, as a 32-bit word, is not negative when read signed. -/
private theorem slt_zero_eq_zero (k : ℕ) (hk : k < 86) :
    IntOp.cmpi .slt (BitVec.ofNat 32 k) 0#32 = 0#1 := by
  apply eq_zero_of_ne_one
  intro hh
  have h1 : (BitVec.ofNat 32 k).toNat < 2 ^ 31 := by rw [BitVec.toNat_ofNat]; omega
  have h2 : (0#32 : BitVec 32).toNat < 2 ^ 31 := by decide
  have h3 := (StableHlo.Predicate.slt_iff_toNat h1 h2).mp hh
  simp at h3

/-- A class number 0 … 85 read signed and clamped into 0 … 85 is itself. -/
private theorem clamp_label (k : ℕ) (hk : k < 86) : min (BitVec.ofNat 32 k).toInt.toNat 85 = k := by
  rw [StableHlo.Predicate.toInt_ofNat_small k (by omega), Int.toNat_natCast]
  omega

/-- The start word the lookups and the scatter read for row n is the label itself. -/
theorem ref_start (h : RealInputs X Lb C x lab c) (n : Fin 131072) :
    val_main_v5 (F := Ideal) Lb (ix2 n (0 : Fin 1)) = BitVec.ofNat 32 (lab n).val := by
  have hidx : idx_main_v5 (ix2 n (0 : Fin 1)) = ix1 n := by
    funext a; match a with | ⟨0, _⟩ => rfl
  rw [val_main_v5_apply, val_main_v4_apply, val_main_v1_apply, val_main_v0_apply, val_main_c_apply, hidx, h.hL n,
    slt_zero_eq_zero _ (lab n).isLt, select_zero]

/-- The difference table. -/
theorem ref_diff (h : RealInputs X Lb C x lab c) (n : Fin 131072) (f : Fin 256) :
    val_main_v7 (F := Ideal) X Lb C (ix2 n f) = ((diff x lab c n f : ℝ) : EReal) := by
  have hk : (⟨min (val_main_v5 (F := Ideal) Lb (ix2 n (0 : Fin 1))).toInt.toNat 85, by omega⟩ : Fin 86) = lab n := by
    apply Fin.ext
    show min (val_main_v5 (F := Ideal) Lb (ix2 n (0 : Fin 1))).toInt.toNat 85 = (lab n).val
    rw [ref_start h n, clamp_label _ (lab n).isLt]
  rw [val_main_v7_apply]
  unfold val_main_v6
  rw [RefIndex.gather_rows, hk, h.hX, h.hC, Ideal.subf_def, ← EReal.coe_sub]
  rfl

/-- The loss. -/
theorem ref_loss_eq (h : RealInputs X Lb C x lab c) : val_main_v10 (F := Ideal) X Lb C = GLoss x lab c := by
  funext i
  rw [val_main_v10_apply, val_main_v9_apply, val_main_cst_1_apply, val_main_cst_apply,
    sum_idx2 (n0 := 131072) (n1 := 256)]
  simp only [val_main_v8_apply, ref_diff h, Ideal.mulf_def, Ideal.addf_def, Ideal.ofBits_def, ← EReal.coe_mul]
  rw [Ideal.ofBits_zero_f32, zero_add]
  show half * _ = _
  rw [Bridge.half_eq]
  simp only [← Bridge.coe_sum, ← EReal.coe_mul]
  rfl

end Cert.CenterLoss.Ref

end
-- ==== Proof.RefCent.lean ====
/-
  The reference's new centres over real inputs with in-range labels. The per-class counts are a sum of ones, so
  non-negative reals; each row's update is −(½ · (−d)) / (1 + count of its class) = d · (½ / (1 + count)); the
  updates landing on (k, f) are those of the rows of class k at column f; and a common real factor leaves a
  finite real sum: centre + (Σ_{rows of class k} d) · ½ / (1 + count k).
-/
import proofs.«403531_j19035295056206_3_alg».proof.Proof.RefLoss

noncomputable section

namespace Cert.CenterLoss.Ref

open Idealize.ShloMosaic Idealize.ShloMosaic.ValueIdx
open Cert.ReferenceIdeal Cert.ReferenceIdeal.Gen Cert.ReferenceIdeal.Read Cert.CenterLoss

variable {X : SX.Idx → EReal} {Lb : SLb.Idx → BitVec 32} {C : SC.Idx → EReal}
  {x : Fin 131072 → Fin 256 → ℝ} {lab : Fin 131072 → Fin 86} {c : Fin 86 → Fin 256 → ℝ}

/-- Zero plus a finite sum of ones is a non-negative real. -/
private theorem zero_add_sum_one {ι : Type} (S : Finset ι) (u : ι → EReal) (hu : ∀ j, u j = ((1 : ℝ) : EReal)) :
    ∃ r : ℝ, 0 ≤ r ∧ (0 : EReal) + ∑ j ∈ S, u j = ((r : ℝ) : EReal) := by
  refine ⟨∑ j ∈ S, (1 : ℝ), Finset.sum_nonneg (fun _ _ => zero_le_one), ?_⟩
  rw [zero_add, Finset.sum_congr rfl (fun j _ => hu j), Bridge.coe_sum]

/-- The per-class counts are non-negative reals, whatever the labels. -/
theorem cnt_real (Lb : SLb.Idx → BitVec 32) :
    ∃ cn : Fin 86 → ℝ, (∀ k, 0 ≤ cn k) ∧ ∀ k, val_main_v14 (F := Ideal) Lb (ix1 k) = ((cn k : ℝ) : EReal) := by
  have key : ∀ k : Fin 86, ∃ r : ℝ, 0 ≤ r ∧ val_main_v14 (F := Ideal) Lb (ix1 k) = ((r : ℝ) : EReal) := by
    intro k
    unfold val_main_v14
    simp only [Host.scatterAdd, Ideal.hostScatterAdd_def]
    unfold Ideal.hostScatterAdd
    have h0 : val_main_v12 (F := Ideal) (ix1 k) = 0 := by
      rw [val_main_v12_apply, val_main_cst_3_apply, Ideal.ofBits_def, Ideal.ofBits_zero_f32]
    simp only [h0]
    exact zero_add_sum_one _ _ (fun j => by
      rw [val_main_v11_apply, val_main_cst_2_apply, Ideal.ofBits_def]; exact Bridge.one_eq)
  choose cn h1 h2 using key
  exact ⟨cn, h1, h2⟩

/-- A class number below 86, written as a 32-bit word and read back signed, is itself. -/
private theorem toInt_ofNat_small (m : ℕ) (hm : m < 86) : (BitVec.ofNat 32 m).toInt = (m : ℤ) := by
  rw [BitVec.toInt_eq_toNat_cond, BitVec.toNat_ofNat]
  have e : m % 2 ^ 32 = m := Nat.mod_eq_of_lt (by omega)
  rw [e, if_pos (by omega)]

/-- The count lookup's row index under the two broadcasts is the row itself. -/
private theorem idx22_28 (n : Fin 131072) (f' : Fin 256) :
    idx_main_v22 (idx_main_v28 (ix2 n f' : S131072x256.Idx)) = (ix1 n : S131072.Idx) := by
  funext a; match a with | ⟨0, _⟩ => rfl

/-- The start word the count lookup and the scatter read is the one the row lookup reads. -/
private theorem start20 (n : Fin 131072) :
    val_main_v20 (F := Ideal) Lb (ix2 n (0 : Fin 1)) = val_main_v5 (F := Ideal) Lb (ix2 n (0 : Fin 1)) := rfl
private theorem start36 (n : Fin 131072) :
    val_main_v36 (F := Ideal) Lb (ix2 n (0 : Fin 1)) = val_main_v5 (F := Ideal) Lb (ix2 n (0 : Fin 1)) := rfl

/-- The count a row's update divides by is the count of the row's class. -/
private theorem cnt_at (h : RealInputs X Lb C x lab c) (cn : Fin 86 → ℝ)
    (hcn : ∀ k, val_main_v14 (F := Ideal) Lb (ix1 k) = ((cn k : ℝ) : EReal)) (n : Fin 131072) :
    val_main_v21 (F := Ideal) Lb (ix1 n) = ((cn (lab n) : ℝ) : EReal) := by
  unfold val_main_v21
  rw [RefIndex.gather_count, ← hcn (lab n)]
  refine congrArg (fun q : Fin 86 => val_main_v14 (F := Ideal) Lb (ix1 q)) (Fin.ext ?_)
  show min (val_main_v20 (F := Ideal) Lb (ix2 n (0 : Fin 1))).toInt.toNat 85 = (lab n).val
  rw [start20, ref_start h n, toInt_ofNat_small _ (lab n).isLt, Int.toNat_natCast]
  have := (lab n).isLt
  omega

/-- One row's update: −(½ · (−d)) / (1 + count) = d · (½ / (1 + count)). -/
private theorem upd_val (h : RealInputs X Lb C x lab c) (cn : Fin 86 → ℝ) (hpos : ∀ k, 0 ≤ cn k)
    (hcn : ∀ k, val_main_v14 (F := Ideal) Lb (ix1 k) = ((cn k : ℝ) : EReal)) (n : Fin 131072) (f : Fin 256) :
    val_main_v30 (F := Ideal) X Lb C (ix2 n f)
      = ((diff x lab c n f * ((1 / 2) / (1 + cn (lab n))) : ℝ) : EReal) := by
  rw [val_main_v30_apply, val_main_v29_apply, val_main_v25_apply, val_main_v24_apply, val_main_cst_6_apply,
    val_main_v23_apply, val_main_v28_apply, val_main_v27_apply, val_main_v26_apply, val_main_cst_7_apply,
    val_main_v22_apply, idx22_28, cnt_at h cn hcn n, ref_diff h n f]
  simp only [Ideal.hostNegf_def, Ideal.negf_def, Ideal.hostDivf_def, Ideal.mulf_def, Ideal.addf_def, Ideal.ofBits_def]
  have hne : (1 + cn (lab n) : ℝ) ≠ 0 := by have := hpos (lab n); linarith
  change -(Ideal.div (half * -((diff x lab c n f : ℝ) : EReal)) (one + ((cn (lab n) : ℝ) : EReal))) = _
  rw [Bridge.half_eq, Bridge.one_eq, ← EReal.coe_add, Ideal.div_coe hne, ← EReal.coe_neg, ← EReal.coe_mul,
    ← EReal.coe_mul, ← EReal.coe_neg, EReal.coe_eq_coe_iff]
  field_simp

/-- One term of the scattered sum: update (n, f') lands on (k, f) exactly for the rows of class k at column f. -/
private theorem term_eq (h : RealInputs X Lb C x lab c) (cn : Fin 86 → ℝ) (hpos : ∀ k, 0 ≤ cn k)
    (hcn : ∀ k, val_main_v14 (F := Ideal) Lb (ix1 k) = ((cn k : ℝ) : EReal))
    (n : Fin 131072) (f' : Fin 256) (k : Fin 86) (f : Fin 256)
    [Decidable (scatter_S86x256_S131072x1_S131072x256_1_0_0_1.resultIdx? (ix2 n f') (val_main_v36 (F := Ideal) Lb)
      = some (ix2 k f))] :
    (if scatter_S86x256_S131072x1_S131072x256_1_0_0_1.resultIdx? (ix2 n f') (val_main_v36 (F := Ideal) Lb)
        = some (ix2 k f) then val_main_v30 (F := Ideal) X Lb C (ix2 n f') else 0)
      = if f' = f then (if lab n = k then ((diff x lab c n f * ((1 / 2) / (1 + cn k)) : ℝ) : EReal) else 0) else 0 := by
  have hiff := RefIndex.scatter_rows_iff (val_main_v36 (F := Ideal) Lb) n f' k f
  rw [start36, ref_start h n, toInt_ofNat_small _ (lab n).isLt] at hiff
  by_cases hf : f' = f
  · subst hf
    by_cases hk : lab n = k
    · subst hk
      rw [if_pos (hiff.mpr ⟨rfl, rfl⟩), if_pos rfl, if_pos rfl, upd_val h cn hpos hcn]
    · rw [if_neg (fun hh => hk (Fin.ext (by exact_mod_cast (hiff.mp hh).1))), if_pos rfl, if_neg hk]
  · rw [if_neg (fun hh => hf (hiff.mp hh).2), if_neg hf]

/-- The new centres. -/
theorem ref_cent_eq (h : RealInputs X Lb C x lab c) (cn : Fin 86 → ℝ) (hpos : ∀ k, 0 ≤ cn k)
    (hcn : ∀ k, val_main_v14 (F := Ideal) Lb (ix1 k) = ((cn k : ℝ) : EReal)) :
    val_main_v37 (F := Ideal) X Lb C = GCent x lab c cn := by
  funext j
  obtain ⟨k, f, rfl⟩ : ∃ (k : Fin 86) (f : Fin 256), j = ix2 k f := ⟨j 0, j 1, eq_ix2 j⟩
  have hG : GCent x lab c cn (ix2 k f) = ((newCenter x lab c cn k f : ℝ) : EReal) := rfl
  rw [hG]
  unfold val_main_v37
  simp only [Host.scatterAdd, Ideal.hostScatterAdd_def]
  unfold Ideal.hostScatterAdd
  rw [Finset.sum_filter, sum_idx2]
  refine Eq.trans (congrArg (fun s => C (ix2 k f) + s) (Finset.sum_congr rfl fun n _ =>
    Finset.sum_congr rfl fun f' _ => term_eq h cn hpos hcn n f' k f)) ?_
  simp only [Finset.sum_ite_eq', Finset.mem_univ, if_true]
  have hA : ∀ n : Fin 131072,
      (if lab n = k then ((diff x lab c n f * ((1 / 2) / (1 + cn k)) : ℝ) : EReal) else 0)
        = (((if lab n = k then diff x lab c n f else 0) * ((1 / 2) / (1 + cn k)) : ℝ) : EReal) := by
    intro n
    by_cases hk : lab n = k
    · rw [if_pos hk, if_pos hk]
    · rw [if_neg hk, if_neg hk, zero_mul, EReal.coe_zero]
  rw [Finset.sum_congr rfl (fun n _ => hA n), ← Bridge.coe_sum, ← Finset.sum_mul, h.hC k f, ← EReal.coe_add]
  rfl

end Cert.CenterLoss.Ref

end
-- ==== Proof.PreReal.lean ====
/-
  What the precondition says of the inputs: every feature and every centre entry is a real number (its absolute
  value is below +∞), and every label word, read signed, lies in 0 … 85 — so it is the word of a class number.
-/
import proofs.«403531_j19035295056206_3_alg».proof.Pre_finite_inputs
import proofs.«403531_j19035295056206_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.CenterLoss.Pre

open Idealize.ShloMosaic Idealize.ShloMosaic.ValueIdx Cert.CenterLoss

/-- The result of a reduction over every axis has one index. -/
private instance subsingleton_scalar_idx : Subsingleton Cert.Pre_finite_inputs.S_.Idx :=
  ⟨fun a b => funext fun d => d.elim0⟩

/-- The word 0x7F800000 (sign 0, exponent all ones, fraction 0) denotes +∞. -/
private theorem inf_word : Ideal.ofBits .f32 0x7F800000#32 = (⊤ : EReal) := by
  simp [Ideal.ofBits, Ideal.ieee]

/-- An extended real whose absolute value max a (−a) is strictly below +∞ is a real number:
    at a = +∞ the maximum is +∞, and at a = −∞ it is −(−∞) = +∞. -/
private theorem real_of_abs_lt_inf (a : EReal)
    (h : Ideal.cmp .olt (max a (-a)) (Ideal.ofBits .f32 0x7F800000#32) = 1#1) : ∃ r : ℝ, a = (r : EReal) := by
  rw [inf_word] at h
  simp only [Ideal.cmp, StableHlo.Predicate.ofBool_eq_one_iff, decide_eq_true_eq] at h
  induction a using EReal.rec with
  | bot => simp at h
  | coe r => exact ⟨r, rfl⟩
  | top => simp at h

/-- A 32-bit word that is ≥ 0 and < 86 when read signed has unsigned value below 86. -/
private theorem toNat_lt_of_signed_range (w : BitVec 32) (h0 : IntOp.cmpi .sge w 0#32 = 1#1)
    (h1 : IntOp.cmpi .slt w 86#32 = 1#1) : w.toNat < 86 := by
  rw [IntOp.cmpi_sge] at h0
  rw [IntOp.cmpi_slt] at h1
  have e0 : (0#32 : BitVec 32).toInt = 0 := by decide
  have e1 : (86#32 : BitVec 32).toInt = 86 := by decide
  rw [e0] at h0
  rw [e1] at h1
  rw [BitVec.toInt_eq_toNat_cond] at h0 h1
  have hw := w.isLt
  split at h0 <;> omega

variable [Cert.Pre_finite_inputs.Facts]

theorem real_of_pre (X : SX.Idx → EReal) (Lb : SLb.Idx → BitVec 32) (C : SC.Idx → EReal)
    (h : Cert.Pre_finite_inputs.fn (F := Ideal) X Lb C = fun _ => 1#1) :
    ∃ (x : Fin 131072 → Fin 256 → ℝ) (lab : Fin 131072 → Fin 86) (c : Fin 86 → Fin 256 → ℝ), RealInputs X Lb C x lab c := by
  have h0 := congrFun h ValueIdx.ix0
  dsimp only [Cert.Pre_finite_inputs.fn, Cert.Pre_finite_inputs.fn_part1] at h0
  change IntOp.andi (IntOp.andi (IntOp.andi _ _) _) _ = 1#1 at h0
  rw [IntOp.andi_eq_one, IntOp.andi_eq_one, IntOp.andi_eq_one] at h0
  obtain ⟨⟨⟨hx, hc⟩, hl0⟩, hl1⟩ := h0
  -- every entry of both tables is a real number
  have eX : ∀ i : SX.Idx, ∃ r : ℝ, X i = (r : EReal) := fun i =>
    real_of_abs_lt_inf (X i) (Host.reduce_andi_all _ _ _ _ _ hx i)
  have eC : ∀ i : SC.Idx, ∃ r : ℝ, C i = (r : EReal) := fun i =>
    real_of_abs_lt_inf (C i) (Host.reduce_andi_all _ _ _ _ _ hc i)
  -- every label word lies in 0 … 85 read signed
  have hL0 : ∀ i : SLb.Idx, IntOp.cmpi .sge (Lb i) 0#32 = 1#1 := fun i => Host.reduce_andi_all _ _ _ _ _ hl0 i
  have hL1 : ∀ i : SLb.Idx, IntOp.cmpi .slt (Lb i) 86#32 = 1#1 := fun i => Host.reduce_andi_all _ _ _ _ _ hl1 i
  refine ⟨fun n f => (X (ix2 n f)).toReal,
    fun n => ⟨(Lb (ix1 n)).toNat, toNat_lt_of_signed_range _ (hL0 _) (hL1 _)⟩,
    fun k f => (C (ix2 k f)).toReal, ⟨?_, ?_, ?_⟩⟩
  · intro n f
    obtain ⟨r, hr⟩ := eX (ix2 n f)
    show X (ix2 n f) = (((X (ix2 n f)).toReal : ℝ) : EReal)
    rw [hr, EReal.toReal_coe]
  · intro n
    show Lb (ix1 n) = BitVec.ofNat 32 (Lb (ix1 n)).toNat
    apply BitVec.eq_of_toNat_eq
    rw [BitVec.toNat_ofNat, Nat.mod_eq_of_lt (Lb (ix1 n)).isLt]
  · intro k f
    obtain ⟨r, hr⟩ := eC (ix2 k f)
    show C (ix2 k f) = (((C (ix2 k f)).toReal : ℝ) : EReal)
    rw [hr, EReal.toReal_coe]

end Cert.CenterLoss.Pre

end
-- ==== Proof.BridgeLoss.lean ====
/-
  The tiled loss is the real loss: each tile's share is ½ · (the tile's ΣΣ d²), ½ distributes over the finite real
  sums, and the tiles of the two runs are all the rows.
-/
import proofs.«403531_j19035295056206_3_alg».proof.Proof.BridgeTile
import Mathlib.Algebra.BigOperators.Fin
import Mathlib.Data.EReal.Basic

noncomputable section

namespace Cert.CenterLoss.Bridge

open Idealize.ShloMosaic Idealize.ShloMosaic.ValueIdx Cert.CenterLoss

variable {X : SX.Idx → EReal} {Lb : SLb.Idx → BitVec 32} {C : SC.Idx → EReal}
  {x : Fin 131072 → Fin 256 → ℝ} {lab : Fin 131072 → Fin 86} {c : Fin 86 → Fin 256 → ℝ}

/-- One tile's share of the real loss: ½ · Σ_r Σ_f d(4096·t + r, f)². -/
private def tileShare (x : Fin 131072 → Fin 256 → ℝ) (lab : Fin 131072 → Fin 86) (c : Fin 86 → Fin 256 → ℝ)
    (t : Fin 32) : ℝ :=
  (1 / 2) * ∑ r : Fin 4096, ∑ f : Fin 256, diff x lab c (grow t r) f * diff x lab c (grow t r) f

/-- The shares as a function of a natural tile number, 0 past the last tile. -/
private def share (x : Fin 131072 → Fin 256 → ℝ) (lab : Fin 131072 → Fin 86) (c : Fin 86 → Fin 256 → ℝ)
    (n : ℕ) : ℝ :=
  if h : n < 32 then tileShare x lab c ⟨n, h⟩ else 0

/-- A tile's loss is its real share: every difference is real, so the squares, their double sum and the product
    with ½ stay inside the reals. -/
private theorem tLoss_real (h : RealInputs X Lb C x lab c) (t : Fin 32) :
    tLoss X Lb C t = ((tileShare x lab c t : ℝ) : EReal) := by
  unfold tLoss blkLoss tileShare
  simp only [blkD_real h]
  have e : ∑ r : Fin 4096, ∑ f : Fin 256,
        ((diff x lab c (grow t r) f : ℝ) : EReal) * ((diff x lab c (grow t r) f : ℝ) : EReal)
      = ((∑ r : Fin 4096, ∑ f : Fin 256, diff x lab c (grow t r) f * diff x lab c (grow t r) f : ℝ) : EReal) := by
    rw [coe_sum]
    refine Finset.sum_congr rfl fun r _ => ?_
    rw [coe_sum]
    refine Finset.sum_congr rfl fun f _ => ?_
    rw [EReal.coe_mul]
  rw [e, half_eq, ← EReal.coe_mul]

/-- The per-tile losses by tile number are the real shares by tile number. -/
private theorem atTile_real (h : RealInputs X Lb C x lab c) :
    atTile (tLoss X Lb C) = fun n => ((share x lab c n : ℝ) : EReal) := by
  funext n
  unfold atTile share
  by_cases hn : n < 32
  · rw [dif_pos hn, dif_pos hn, tLoss_real h]
  · rw [dif_neg hn, dif_neg hn, EReal.coe_zero]

/-- The two slabs of the partial result are told apart by the run number alone: the other two coordinates range
    over one value each. -/
private def olEquiv : OL.Idx ≃ Fin 2 where
  toFun i := ⟨(i 0).val, (i 0).isLt⟩
  invFun cc := ix3 cc (0 : Fin 1) (0 : Fin 1)
  left_inv := by
    intro i
    have h1 : (i 1).val < 1 := (i 1).isLt
    have h2 : (i 2).val < 1 := (i 2).isLt
    funext a
    match a with
    | ⟨0, _⟩ => rfl
    | ⟨1, _⟩ => exact Fin.ext (by show (0 : ℕ) = (i 1).val; omega)
    | ⟨2, _⟩ => exact Fin.ext (by show (0 : ℕ) = (i 2).val; omega)
  right_inv := by
    intro cc
    rfl

/-- Run cc and place i in the run name tile 16·cc + i, and every tile n is named exactly once, by cc = n / 16 and
    i = n mod 16. -/
private def runEquiv : Fin 2 × Fin 16 ≃ Fin 32 where
  toFun p := ⟨p.1.val * 16 + p.2.val, by have := p.1.isLt; have := p.2.isLt; omega⟩
  invFun n := (⟨n.val / 16, by have := n.isLt; omega⟩, ⟨n.val % 16, by omega⟩)
  left_inv := by
    rintro ⟨a, b⟩
    have ha := a.isLt
    have hb := b.isLt
    refine Prod.ext (Fin.ext ?_) (Fin.ext ?_)
    · show (a.val * 16 + b.val) / 16 = a.val
      omega
    · show (a.val * 16 + b.val) % 16 = b.val
      omega
  right_inv := by
    intro n
    apply Fin.ext
    show n.val / 16 * 16 + n.val % 16 = n.val
    omega

/-- Over the reals: the shares of the two runs of 16 tiles add up to the loss. ½ moves inside the sum over tiles,
    the rows are summed tile by tile, and the tiles are summed run by run. -/
private theorem shares_sum (x : Fin 131072 → Fin 256 → ℝ) (lab : Fin 131072 → Fin 86) (c : Fin 86 → Fin 256 → ℝ) :
    ∑ cc : Fin 2, ∑ i : Fin 16, share x lab c (cc.val * 16 + i.val) = loss x lab c := by
  unfold loss
  rw [sum_tiles, Finset.mul_sum, ← Equiv.sum_comp runEquiv, Fintype.sum_prod_type]
  refine Finset.sum_congr rfl fun cc _ => Finset.sum_congr rfl fun i _ => ?_
  have hlt : cc.val * 16 + i.val < 32 := by
    have := cc.isLt
    have := i.isLt
    omega
  unfold share
  rw [dif_pos hlt]
  rfl

theorem KLoss_eq (h : RealInputs X Lb C x lab c) : KLoss X Lb C = GLoss x lab c := by
  funext j
  unfold KLoss GLoss
  rw [← Equiv.sum_comp olEquiv.symm (lossOut X Lb C)]
  have e : ∀ cc : Fin 2, lossOut X Lb C (olEquiv.symm cc)
      = ((∑ i : Fin 16, share x lab c (cc.val * 16 + i.val) : ℝ) : EReal) := by
    intro cc
    show acc (atTile (tLoss X Lb C)) (cc.val * 16 + 15) = _
    rw [atTile_real h, acc_run]
  simp only [e]
  rw [← coe_sum, zero_add, shares_sum]

end Cert.CenterLoss.Bridge

end
-- ==== Proof.BridgeCent.lean ====
/-
  The tiled new centres are the real ones: each tile's class sum is the sum of d over the tile's rows of that
  class, the two runs' totals are the sum over all rows of the class, and the per-class scale is a real number
  because the count is a non-negative real.
-/
import proofs.«403531_j19035295056206_3_alg».proof.Proof.BridgeTile
import Mathlib.Algebra.BigOperators.Fin
import Mathlib.Algebra.BigOperators.Group.Finset.Basic

noncomputable section

namespace Cert.CenterLoss.Bridge

open Idealize.ShloMosaic Idealize.ShloMosaic.ValueIdx Cert.CenterLoss

variable {X : SX.Idx → EReal} {Lb : SLb.Idx → BitVec 32} {C : SC.Idx → EReal}
  {x : Fin 131072 → Fin 256 → ℝ} {lab : Fin 131072 → Fin 86} {c : Fin 86 → Fin 256 → ℝ}

/-- One run's class sum, read at the coordinates of its index. -/
private theorem deltaOut_at (cc : Fin 2) (k' : Fin 128) (f : Fin 256) :
    deltaOut X Lb C (ix3 cc k' f) = acc (atTile (tDelta X Lb C k' f)) (cc.val * 16 + 15) := rfl

/-- The new centre of class k, entry f, read at the coordinates of its index. -/
private theorem KCent_at (cnt : SCnt.Idx → EReal) (k : Fin 86) (f : Fin 256) :
    KCent X Lb C cnt (ix2 k f) =
      C (ix2 k f) + (0 + ∑ cc : Fin 2, deltaOut X Lb C (ix3 cc (⟨k.val, by have := k.isLt; omega⟩ : Fin 128) f))
        * Ideal.div half (one + cnt (ix1 k)) := rfl

private theorem GCent_at (cn : Fin 86 → ℝ) (k : Fin 86) (f : Fin 256) :
    GCent x lab c cn (ix2 k f) = ((newCenter x lab c cn k f : ℝ) : EReal) := rfl

/-- Tile number n's share of class k's sum of differences over the reals (0 past the last tile). -/
private def tileSum (x : Fin 131072 → Fin 256 → ℝ) (lab : Fin 131072 → Fin 86) (c : Fin 86 → Fin 256 → ℝ)
    (k : Fin 86) (f : Fin 256) (n : ℕ) : ℝ :=
  if h : n < 32 then ∑ r : Fin 4096, (if lab (grow ⟨n, h⟩ r) = k then diff x lab c (grow ⟨n, h⟩ r) f else 0) else 0

/-- One tile's class sum is the real sum of d over the tile's rows of that class: the one-hot factor is the
    indicator of the row's class, and a padded class number below 86 names the class of the same number. -/
private theorem tDelta_real (h : RealInputs X Lb C x lab c) (k : Fin 86) (k' : Fin 128) (hk : k'.val = k.val)
    (f : Fin 256) (t : Fin 32) :
    tDelta X Lb C k' f t
      = ((∑ r : Fin 4096, (if lab (grow t r) = k then diff x lab c (grow t r) f else 0) : ℝ) : EReal) := by
  unfold tDelta blkDelta
  rw [coe_sum]
  refine Finset.sum_congr rfl (fun r _ => ?_)
  rw [oh_label h, blkD_real h]
  by_cases hl : lab (grow t r) = k
  · have hv : (lab (grow t r)).val = k'.val := by rw [hl, hk]
    rw [if_pos hv, if_pos hl, one_mul]
  · have hv : ¬ (lab (grow t r)).val = k'.val := by
      rw [hk]; exact fun e => hl (Fin.ext e)
    rw [if_neg hv, if_neg hl, zero_mul, EReal.coe_zero]

/-- The per-tile class sums, as a function of the tile number, are real. -/
private theorem atTile_real (h : RealInputs X Lb C x lab c) (k : Fin 86) (k' : Fin 128) (hk : k'.val = k.val)
    (f : Fin 256) :
    atTile (tDelta X Lb C k' f) = fun n => ((tileSum x lab c k f n : ℝ) : EReal) := by
  funext n
  unfold atTile tileSum
  by_cases hn : n < 32
  · rw [dif_pos hn, dif_pos hn, tDelta_real h k k' hk]
  · rw [dif_neg hn, dif_neg hn, EReal.coe_zero]

/-- The two runs of 16 tile shares together are the sum over all rows of the class. -/
private theorem runs_total (k : Fin 86) (f : Fin 256) :
    (∑ i : Fin 16, tileSum x lab c k f ((0 : Fin 2).val * 16 + i.val))
      + (∑ i : Fin 16, tileSum x lab c k f ((1 : Fin 2).val * 16 + i.val))
      = ∑ n : Fin 131072, (if lab n = k then diff x lab c n f else 0) := by
  rw [sum_tiles (fun n => if lab n = k then diff x lab c n f else 0)]
  have e32 : ∑ t : Fin 32, ∑ r : Fin 4096, (if lab (grow t r) = k then diff x lab c (grow t r) f else 0)
      = ∑ t : Fin 32, tileSum x lab c k f t.val := by
    refine Finset.sum_congr rfl (fun t _ => ?_)
    unfold tileSum
    rw [dif_pos t.isLt]
  rw [e32, ← Finset.sum_range (tileSum x lab c k f), show (32 : ℕ) = 16 + 16 from rfl,
    Finset.sum_range_add, Finset.sum_range, Finset.sum_range]
  simp only [Fin.val_zero, Fin.val_one, zero_mul, zero_add, one_mul]

/-- The per-class scale is the real ½ / (1 + count). -/
private theorem scale_real (cnt : SCnt.Idx → EReal) (cn : Fin 86 → ℝ) (hpos : ∀ k, 0 ≤ cn k)
    (hcn : ∀ k, cnt (ix1 k) = ((cn k : ℝ) : EReal)) (k : Fin 86) :
    Ideal.div half (one + cnt (ix1 k)) = (((1 / 2) / (1 + cn k) : ℝ) : EReal) := by
  have hne : (1 + cn k) ≠ 0 := by have := hpos k; linarith
  rw [half_eq, one_eq, hcn, ← EReal.coe_add, Ideal.div_coe hne, ← EReal.coe_mul, ← div_eq_mul_one_div]

theorem KCent_eq (h : RealInputs X Lb C x lab c) (cnt : SCnt.Idx → EReal) (cn : Fin 86 → ℝ) (hpos : ∀ k, 0 ≤ cn k)
    (hcn : ∀ k, cnt (ix1 k) = ((cn k : ℝ) : EReal)) : KCent X Lb C cnt = GCent x lab c cn := by
  funext j
  obtain ⟨k, f, rfl⟩ : ∃ (k : Fin 86) (f : Fin 256), j = ix2 k f := ⟨j 0, j 1, eq_ix2 j⟩
  rw [KCent_at, GCent_at, Fin.sum_univ_two, deltaOut_at, deltaOut_at,
    atTile_real h k ⟨k.val, by have := k.isLt; omega⟩ rfl f, acc_run, acc_run, scale_real cnt cn hpos hcn k,
    h.hC k f, zero_add, ← EReal.coe_add, runs_total, ← EReal.coe_mul, ← EReal.coe_add]
  rfl

end Cert.CenterLoss.Bridge

end
-- ==== Proof.lean ====
/-
  Centre loss with a per-class mean update, tiled, against its plain array form.

  Both programs take N = 131072 feature rows of 256 entries, one class label per row and 86 class centres, and
  return the loss ½ · ΣΣ d² with d(n, f) = x(n, f) − c(label n, f), and the centres moved by each class's sum of d
  scaled by ½ / (1 + the class's row count). The tiled program walks 32 tiles of 4096 rows in two runs of 16;
  it looks a row's centre up by a one-hot product against the centre table padded to 128 classes, accumulates per
  run the loss share and the UNSCALED per-class sums of d, and applies the per-class scale once at the end. The
  plain program indexes the centre table, scales each row's d by its own class's factor and scatters the rows.

  Over the extended reals the two agree where every feature and centre entry is a real number and every label lies
  in 0 … 85 (outside that range the plain program's lookup clamps while the one-hot product reads a zero row, so the
  range is part of the precondition): the one-hot product then IS the lookup, and a common real factor moves across a
  finite sum of reals. Both results are shown equal to the real-valued formulas of Proof/Spec.lean: the tiled side
  in Proof/K*.lean (what the tiles hold, their accumulation, the final arrays, the closing operations) and
  Proof/Bridge*.lean (tiled sums against plain sums), the plain side in Proof/Ref*.lean; Proof/PreReal.lean reads
  the precondition. The three programs' runs themselves (termination, no fault, arguments unchanged) are the
  generated frame modules'.
-/
import proofs.«403531_j19035295056206_3_alg».proof.Defs
import proofs.«403531_j19035295056206_3_alg».proof.Proof.Gen.Kernel
import proofs.«403531_j19035295056206_3_alg».proof.Proof.Gen.Kernel.Skeleton
import proofs.«403531_j19035295056206_3_alg».proof.Proof.Gen.Kernel.Launch
import proofs.«403531_j19035295056206_3_alg».proof.Proof.Gen.Kernel.Points
import proofs.«403531_j19035295056206_3_alg».proof.Proof.Gen.Kernel.Frame
import proofs.«403531_j19035295056206_3_alg».proof.Proof.Gen.KernelIdeal
import proofs.«403531_j19035295056206_3_alg».proof.Proof.Gen.KernelIdeal.Skeleton
import proofs.«403531_j19035295056206_3_alg».proof.Proof.Gen.KernelIdeal.Launch
import proofs.«403531_j19035295056206_3_alg».proof.Proof.Gen.KernelIdeal.Points
import proofs.«403531_j19035295056206_3_alg».proof.Proof.Gen.KernelIdeal.Frame
import proofs.«403531_j19035295056206_3_alg».proof.Proof.Gen.ReferenceIdeal
import proofs.«403531_j19035295056206_3_alg».proof.Proof.Gen.ReferenceIdeal.Run
import proofs.«403531_j19035295056206_3_alg».proof.Proof.Gen.ReferenceIdeal.Read
import proofs.«403531_j19035295056206_3_alg».proof.Proof.Gen.Pre_finite_inputs
import proofs.«403531_j19035295056206_3_alg».proof.Proof.KTail
import proofs.«403531_j19035295056206_3_alg».proof.Proof.RefCent
import proofs.«403531_j19035295056206_3_alg».proof.Proof.PreReal
import proofs.«403531_j19035295056206_3_alg».proof.Proof.BridgeLoss
import proofs.«403531_j19035295056206_3_alg».proof.Proof.BridgeCent
import Idealize.ShloMosaic.Adequacy
import Idealize.ShloMosaic.Init

noncomputable section

namespace Cert.Proof

open Idealize.ShloMosaic Idealize.ShloMosaic.TcCoe Idealize.SL.Sem Cert.CenterLoss Cert.CenterLoss.Blocks

/-- The two programs count the rows of each class by the same operation on the same labels. -/
theorem kcnt_eq (Lb : SLb.Idx → BitVec 32) :
    Cert.CenterLoss.Tail.kcnt Lb = Cert.ReferenceIdeal.Read.val_main_v14 (F := Ideal) Lb := rfl

theorem frame_k : Cert.frame_Kernel := fun m ρ _ => Cert.Kernel.Gen.frame m ρ

theorem frame_ki : Cert.frame_KernelIdeal := fun m ρ _ => Cert.KernelIdeal.Gen.frame m ρ

/-- The plain program's run with its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end at the plain program's two stages of the tiled program's own arguments: the tiled one because its
    tiled sums are the real formulas (under the precondition) and so are the plain stages, the plain one because its
    arguments agree with the tiled program's. -/
theorem algebraic : Cert.algebraic_KernelIdeal_ReferenceIdeal := by
  intro m ρ m' ρ' hpre hagree
  refine ⟨fun c => Cert.ReferenceIdeal.Read.val_main_v10 (F := Ideal) (Xof m c) (Lof m c) (Cof m c),
    fun c => Cert.ReferenceIdeal.Read.val_main_v37 (F := Ideal) (Xof m c) (Lof m c) (Cof m c), ?_, ?_⟩
  · refine (θ_run Cert.KernelIdeal.defs _ _).mono (fun r h c => ?_) (Cert.CenterLoss.Tail.kernel_value m ρ)
    obtain ⟨x, lab, cc, hR⟩ := Cert.CenterLoss.Pre.real_of_pre _ _ _ (hpre c)
    obtain ⟨cn, hpos, hcn⟩ := Cert.CenterLoss.Ref.cnt_real (Lof m c)
    obtain ⟨h1, h2, h3, h4, h5⟩ := h c
    refine ⟨h1.trans ?_, h2.trans ?_, h3, h4, h5⟩
    · exact (Cert.CenterLoss.Bridge.KLoss_eq hR).trans (Cert.CenterLoss.Ref.ref_loss_eq hR).symm
    · exact (Cert.CenterLoss.Bridge.KCent_eq hR _ cn hpos (fun k => (congrFun (kcnt_eq (Lof m c)) _).trans (hcn k))).trans
        (Cert.CenterLoss.Ref.ref_cent_eq hR cn hpos hcn).symm
  · refine (θ_run Cert.ReferenceIdeal.defs _ _).mono (fun r h c => ?_) (Cert.ReferenceIdeal.Value.run (F := Ideal) m' ρ')
    obtain ⟨h1, h2, h3, h4, h5⟩ := h c
    refine ⟨h1.trans ?_, h2.trans ?_, h3, h4, h5⟩
    · rw [Cert.ReferenceIdeal.Read.val_main_v10_eq, (hagree c).1, (hagree c).2.1, (hagree c).2.2]
    · rw [Cert.ReferenceIdeal.Read.val_main_v37_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
